-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel

variable [Facts]

def fn {F : FTy → Type} [FloatOps F] (main_arg0 : FVec F S4x4096x256 .f32) (main_arg1 : FVec F S4x4096x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  main_v8
-- ==== Kernel.lean ====
abbrev S4x4096x256 : Shape := ⟨3, ![4, 4096, 256]⟩
abbrev S4x4096 : Shape := ⟨2, ![4, 4096]⟩
abbrev S4x512x256 : Shape := ⟨3, ![4, 512, 256]⟩
abbrev S4x512 : Shape := ⟨2, ![4, 512]⟩
abbrev S4x512x1 : Shape := ⟨3, ![4, 512, 1]⟩
abbrev S4x512x512 : Shape := ⟨3, ![4, 512, 512]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .bf16⟩
  | .hbm, ⟨3, _⟩ => ⟨S4x4096x256, .bf16⟩
  | .hbm, ⟨4, _⟩ => ⟨S4x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S4x512x256, .bf16⟩
  | .local _ .vmem, ⟨1, _⟩ => ⟨S4x512x256, .bf16⟩
  | .local _ .vmem, ⟨2, _⟩ => ⟨S4x512x256, .bf16⟩
  | .local _ .vmem, ⟨3, _⟩ => ⟨S4x512x256, .bf16⟩
  | .local _ .vmem, ⟨4, _⟩ => ⟨S4x512, .f32⟩
  | .local _ .vmem, ⟨5, _⟩ => ⟨S4x512, .f32⟩
  | .local _ .vmem, ⟨6, _⟩ => ⟨S4x512x1, .f32⟩
  | .local _ .vmem, ⟨7, _⟩ => ⟨S4x512x1, .f32⟩
  | .local _ .vmem, ⟨8, _⟩ => ⟨S4x512x1, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_25 : BitVec 32 := 0#32
  let v36 : BitVec 1 := Scalar.cmpi .ne v35 c0_i32_25
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S4x512x1_S4x512x1_0_0_0 : ∀ a, (![0, 0, 0] : Fin 3 → Nat) a + S4x512x1.size a ≤ S4x512x1.size a
  h_S4x512x1 : 0 < S4x512x1.numel
  shapeCasts_S4x512x1_S4x512x1 : S4x512x1.ShapeCasts S4x512x1
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  reduces_S4x512x512_S4x512 : S4x512x512.Reduces [2] S4x512
  shapeCasts_S4x512_S4x512x1 : S4x512.ShapeCasts S4x512x1
  broadcasts_S4x512x1_S4x512x512 : S4x512x1.Broadcasts S4x512x512
  iota_S4x512x512_d1_w32 : S4x512x512.Iotas .tc 32 [1]
  iota_S4x512x512_d2_w32 : S4x512x512.Iotas .tc 32 [2]
  shapeCasts_S4x512x1_S4x512 : S4x512x1.ShapeCasts S4x512
  inb_S4x512_S4x512_0_0 : ∀ a, (![0, 0] : Fin 2 → Nat) a + S4x512.size a ≤ S4x512.size a
  h_S4x512 : 0 < S4x512.numel
  reducesTo_S4x4096_S_d0_1 : S4x4096.ReducesTo [0, 1] S_
  h_S_ : 0 < S_.numel
  dot_S4x512x256_S4x512x256_S4x512x512_2_2_1_1_0_0_wf : DotDims.WF S4x512x256 S4x512x256 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x256.size a ≤ S4x4096x256.size a
  hwx0_0 : ∀ i : grid0.Coords, EltTy.bits .bf16 = 32 ∨ (Rect.block (s := S4x4096x256) S4x512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x256.size a ≤ S4x4096x256.size a
  hwx0_1 : ∀ i : grid0.Coords, EltTy.bits .bf16 = 32 ∨ (Rect.block (s := S4x4096x256) S4x512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x4096.size a
  hwx0_2 : ∀ i : grid0.Coords, EltTy.bits .f32 = 32 ∨ (Rect.block (s := S4x4096) S4x512.size (cc0_transform_2 i) (hinb0_2 i)).WholeWords (EltTy.packing .f32)

variable [Facts₀]

def dot_S4x512x256_S4x512x256_S4x512x512_2_2_1_1_0_0 : DotDims S4x512x256 S4x512x256 S4x512x512 where
  lhsContracting := [2]
  rhsContracting := [2]
  lhsNonContracting := [1]
  rhsNonContracting := [1]
  lhsBatch := [0]
  rhsBatch := [0]
  wf := dot_S4x512x256_S4x512x256_S4x512x512_2_2_1_1_0_0_wf

abbrev win0_0 : Pipeline.Window sig grid0 :=
  Pipeline.Window.ofSpec (Memref.whole main_v1) S4x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S4x4096x4096 : Shape := ⟨3, ![4, 4096, 4096]⟩
abbrev S_ : Shape := ⟨0, ![]⟩
abbrev S4x4096 : Shape := ⟨2, ![4, 4096]⟩
abbrev S4x1x4096 : Shape := ⟨3, ![4, 1, 4096]⟩
abbrev S4096x4096 : Shape := ⟨2, ![4096, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x4096, .f32⟩
  | .hbm, ⟨3, _⟩ => ⟨S_, .f32⟩
  | .hbm, ⟨4, _⟩ => ⟨S4x4096x4096, .f32⟩
  | .hbm, ⟨5, _⟩ => ⟨S4x4096x4096, .f32⟩
  | .hbm, ⟨6, _⟩ => ⟨S_, .f32⟩
  | .hbm, ⟨7, _⟩ => ⟨S4x4096, .f32⟩
  | .hbm, ⟨8, _⟩ => ⟨S_, .f32⟩
  | .hbm, ⟨9, _⟩ => ⟨S4x4096, .f32⟩
  | .hbm, ⟨10, _⟩ => ⟨S4x4096, .f32⟩
  | .hbm, ⟨11, _⟩ => ⟨S4x1x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096, .f32⟩
  | .hbm, ⟨17, _⟩ => ⟨S4x1x4096, .f32⟩
  | .hbm, ⟨18, _⟩ => ⟨S4x1x4096, .f32⟩
  | .hbm, ⟨19, _⟩ => ⟨S4x4096x4096, .f32⟩
  | .hbm, ⟨20, _⟩ => ⟨S4x4096x4096, .f32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S4x4096x4096, .i1⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  bcast_S4096x4096_S4x4096x4096_1_2 : S4096x4096.BroadcastsInDim S4x4096x4096 (![1, 2] : Fin 2 → Fin S4x4096x4096.rank)
  reducesTo_S4x4096_S_d0_1 : S4x4096.ReducesTo [0, 1] S_
  dot_S4x4096x256_S4x4096x256_S4x4096x4096_2_2_1_1_0_0_wf : DotDims.WF S4x4096x256 S4x4096x256 S4x4096x4096 [2] [2] [1] [1] [0] [0]

variable [Facts₀]

def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf

class Facts : Prop extends Facts₀ where

variable [Facts]
-- ==== Proof.Spec.lean ====
/-
  The quantity both programs compute, written once over the reals.

  With logits ℓ(b,s,t) = ∑ₙ a₁(b,s,n)·a₂(b,t,n), the result array is the diagonal of the
  log-softmax taken along the first sequence axis:
      D(b,t) = ℓ(b,t,t) − ( μ(b,t) + log ∑ₛ exp(ℓ(b,s,t) − μ(b,t)) ),   μ(b,t) = maxₛ ℓ(b,s,t).
  The streamed form visits the 4096 positions s in eight tiles of 512 and keeps a running maximum and a
  running rescaled sum; `runMax` / `runSum` are that recurrence, and after the eighth tile they are μ and the
  full sum (`runMax_seven`, `runSum_seven` in the companion module).
-/
import Idealize.ShloMosaic.PureOps.Ideal
import Idealize.ShloMosaic.Lib.ValueIdx

noncomputable section

namespace Cert.InfoNCE

open Idealize.ShloMosaic Idealize.ShloMosaic.ValueIdx

/-- An input array: batch × sequence × feature. -/
abbrev SZ : Shape := ⟨3, ![4, 4096, 256]⟩
/-- The per-column result: batch × sequence. -/
abbrev SD : Shape := ⟨2, ![4, 4096]⟩
/-- One tile of an input: batch × 512 positions × feature. -/
abbrev SBlk : Shape := ⟨3, ![4, 512, 256]⟩
/-- One column statistic per (batch, position in the tile), kept with a trailing unit axis. -/
abbrev SCol : Shape := ⟨3, ![4, 512, 1]⟩
/-- One tile of the result: batch × 512 positions. -/
abbrev SOut : Shape := ⟨2, ![4, 512]⟩

/-- Position `k` of tile `j` among the 4096 sequence positions (tiles are consecutive runs of 512). -/
def tix (j : ℕ) (k : Fin 512) : Fin 4096 := ⟨(512 * j + k.val) % 4096, Nat.mod_lt _ (by norm_num)⟩

/-- The logit ℓ(b,s,t): the inner product of row `s` of the first input with row `t` of the second. -/
def logit (a1 a2 : SZ.Idx → ℝ) (b : Fin 4) (s t : Fin 4096) : ℝ :=
  ∑ n : Fin 256, a1 (ix3 b s n) * a2 (ix3 b t n)

/-- The maximum of a column. -/
def colMax (f : Fin 4096 → ℝ) : ℝ := Finset.univ.sup' Finset.univ_nonempty f

/-- The column's sum of exponentials, shifted by its maximum. -/
def colSum (f : Fin 4096 → ℝ) : ℝ := ∑ s, Real.exp (f s - colMax f)

/-- Column `t` of batch `b`, as a function of the first sequence axis. -/
def column (a1 a2 : SZ.Idx → ℝ) (b : Fin 4) (t : Fin 4096) : Fin 4096 → ℝ := fun s => logit a1 a2 b s t

/-- The diagonal log-probability of column (b,t), a real number. -/
def diagLogpR (a1 a2 : SZ.Idx → ℝ) (b : Fin 4) (t : Fin 4096) : ℝ :=
  column a1 a2 b t t - (colMax (column a1 a2 b t) + Real.log (colSum (column a1 a2 b t)))

/-- The result array, as extended reals. -/
def diagLogp (a1 a2 : SZ.Idx → ℝ) : SD.Idx → EReal := fun j => ((diagLogpR a1 a2 (j 0) (j 1) : ℝ) : EReal)

/-! ## The streamed recurrence over tiles -/

/-- The maximum of tile `j` of a column. -/
def tileMax (f : Fin 4096 → ℝ) (j : ℕ) : ℝ := Finset.univ.sup' Finset.univ_nonempty (fun k : Fin 512 => f (tix j k))

/-- The running maximum after tiles 0..j. -/
def runMax (f : Fin 4096 → ℝ) : ℕ → ℝ
  | 0 => tileMax f 0
  | j + 1 => max (runMax f j) (tileMax f (j + 1))

/-- The running sum of exponentials after tiles 0..j, each term shifted by the running maximum so far:
    when the maximum moves from μ to μ' the old sum is rescaled by exp(μ − μ'). -/
def runSum (f : Fin 4096 → ℝ) : ℕ → ℝ
  | 0 => ∑ k : Fin 512, Real.exp (f (tix 0 k) - runMax f 0)
  | j + 1 => Real.exp (runMax f j - runMax f (j + 1)) * runSum f j
      + ∑ k : Fin 512, Real.exp (f (tix (j + 1) k) - runMax f (j + 1))

/-! ## One tile's update, on extended reals (the form the streamed program computes it in) -/

/-- The new running maximum from the old one and a tile's 512 scores; the tile's own maximum is folded
    from −∞. -/
def stepMax (sc : Fin 512 → EReal) (mOld : EReal) : EReal :=
  max mOld ((Finset.univ : Finset (Fin 512)).fold max (Ideal.ofBits .f32 0xFF800000#32) sc)

/-- The new running sum: the old one rescaled, plus the tile's exponentials shifted by the new maximum. -/
def stepSum (sc : Fin 512 → EReal) (mOld lOld : EReal) : EReal :=
  Ideal.exp (mOld - stepMax sc mOld) * lOld + ∑ k : Fin 512, Ideal.exp (sc k - stepMax sc mOld)

/-- The diagonal entry of a square tile of scores, taken as a masked row sum. -/
def stepDiag (sc : Fin 512 → EReal) (q : Fin 512) : EReal :=
  ∑ k : Fin 512, if q.val = k.val then sc k else Ideal.ofBits .f32 0x00000000#32

/-- The score of query position `q` against key position `k` of a pair of tiles (scaled by the unit temperature). -/
def tileScore (xq xk : SBlk.Idx → EReal) (b : Fin 4) (q k : Fin 512) : EReal :=
  (∑ d : Fin 256, xq (ix3 b q d) * xk (ix3 b k d)) * Ideal.ofBits .f32 0x3F800000#32

/-- The closing formula of a column: diagonal minus log-sum-exp. -/
def finish (mx l d : EReal) : EReal := d - (mx + Ideal.log l)

end Cert.InfoNCE

end
-- ==== Proof.Finite.lean ====
/-
  Finite inputs are real arrays.

  The precondition says |x| < +∞ entrywise for both inputs (an "and" over all entries, for each input, and the
  two conjoined). An extended real whose absolute value is below +∞ is neither +∞ nor −∞, hence the coercion
  of a real number: its own `toReal`.
-/
import proofs.«164233_j1056561955228_1_alg».proof.Proof.Gen.Pre_finite_inputs
import proofs.«164233_j1056561955228_1_alg».proof.Proof.Spec
import Idealize.ShloMosaic.Lib.ReduceAll

noncomputable section

namespace Cert.InfoNCE

open Idealize.ShloMosaic

/-- The word with all exponent bits set and no fraction bit denotes +∞. -/
private theorem ofBits_posInf : Ideal.ofBits .f32 0x7F800000#32 = (⊤ : EReal) := by
  simp [Ideal.ofBits, Ideal.ieee]

/-- An extended real whose absolute value, max x (−x), lies strictly below +∞ is a real number:
    at −∞ the absolute value is +∞, at +∞ likewise, so the strict comparison fails at both. -/
private theorem coe_toReal_of_abs_lt (x : EReal)
    (h : Ideal.cmp .olt (max x (-x)) (Ideal.ofBits .f32 0x7F800000#32) = 1#1) :
    x = ((x.toReal : ℝ) : EReal) := by
  rw [ofBits_posInf] at h
  induction x using EReal.rec with
  | bot => simp [Ideal.cmp] at h
  | top => simp [Ideal.cmp] at h
  | coe r => rw [EReal.toReal_coe]

/-- The rank-0 result shape has exactly one index. -/
private instance subsingleton_scalarIdx : Subsingleton Cert.Pre_finite_inputs.S_.Idx :=
  ⟨fun a b => funext fun d => d.elim0⟩

/-- Under the precondition each input array is the coercion of a real array (its entrywise `toReal`). -/
theorem real_of_pre (z1 z2 : FVec Ideal Cert.Pre_finite_inputs.S4x4096x256 .f32)
    (h : Cert.Pre_finite_inputs.fn (F := Ideal) z1 z2 = fun _ => 1#1) :
    (z1 = fun i => (((z1 i : EReal).toReal : ℝ) : EReal)) ∧ (z2 = fun i => (((z2 i : EReal).toReal : ℝ) : EReal)) := by
  have h0 := congrFun h ValueIdx.ix0
  dsimp only [Cert.Pre_finite_inputs.fn] at h0
  obtain ⟨h1, h2⟩ := IntOp.andi_eq_one.1 h0
  refine ⟨funext fun i => ?_, funext fun i => ?_⟩
  · exact coe_toReal_of_abs_lt (z1 i) (Host.reduce_andi_all _ _ _ _ _ h1 i)
  · exact coe_toReal_of_abs_lt (z2 i) (Host.reduce_andi_all _ _ _ _ _ h2 i)

end Cert.InfoNCE

end
-- ==== Proof.KernelCasesFirst.lean ====
/-
  What the body leaves in the three carried statistics at a point that is not a last key tile and not on the diagonal past the first (cases of the first key tile, and of a middle key tile off the diagonal).

  A grid point is in one of six cases, by whether it is the first key tile of its query tile (the statistics
  are reset first), whether key tile and query tile coincide (the diagonal is recorded), and whether it is the
  last key tile (the output tile is written). In every case the contents left behind are the body's payload
  terms of the two input tiles and of what the point found in the statistics (after a reset: the reset
  values).
-/
import proofs.«164233_j1056561955228_1_alg».proof.Proof.Gen.KernelIdeal.Frame
import Idealize.ShloMosaic.Lib.Pipeline.Value

set_option maxRecDepth 16384

noncomputable section

namespace Cert.InfoNCE.Kernel

open Idealize.ShloMosaic Idealize.ShloMosaic.TcCoe Idealize.ShloMosaic.Tactic Idealize.SL.Sem
open Cert.KernelIdeal Cert.KernelIdeal.Gen

variable {F : FTy → Type} [FloatOps F]
variable (c : Dev nD) (i : grid0.Coords)
  (arg2 : Memref sig .tc .vmem S4x512x256 .bf16) (harg2 : arg2.IsWhole)
  (arg3 : Memref sig .tc .vmem S4x512x256 .bf16) (harg3 : arg3.IsWhole)
  (arg4 : Memref sig .tc .vmem S4x512 .f32) (harg4 : arg4.IsWhole)
  (arg5 : Memref sig .tc .vmem S4x512x1 .f32) (harg5 : arg5.IsWhole)
  (arg6 : Memref sig .tc .vmem S4x512x1 .f32) (harg6 : arg6.IsWhole)
  (arg7 : Memref sig .tc .vmem S4x512x1 .f32) (harg7 : arg7.IsWhole)
  (x0 x1 : Vec F S4x512x256 .bf16) (xs0 xs1 xs2 : Vec F S4x512x1 .f32)

/-- The offsets of every store and load of the three statistics and of the two input tiles are all zero: each
    goes through the whole buffer. -/
private theorem hz3 : (![0, 0, 0] : Fin 3 → Nat) = fun _ => 0 := funext fun a => by fin_cases a <;> rfl

/-! Each case below reads the same way. The stores the body made into a statistic cover it, so what is left is
    the payload of the last store into it (an earlier reset underneath does not show). The loads inside that
    payload read either a whole input buffer (its contents) or a statistic the same point had just reset (the
    reset value). -/

/-! ## First key tile and diagonal tile at once (the very first point) -/

theorem sout0_A_0_eq (hc0 : cond0_0 i) (hc1 : cond0_1 i) (hc2 : ¬cond0_2 i) :
    sout0_A_0 (F := F) c i arg2 harg2 arg3 harg3 arg4 harg4 arg5 harg5 arg6 harg6 arg7 harg7 hc0 hc1 hc2 x0 x1
      = k0_pay1 (k0_pay8 x0 x1 (k0_pay4 (F := F))) := by
  unfold sout0_A_0
  rw [View.read_writes_eq_canon _ _ _ (scover0_A_0 c i arg2 harg2 arg3 harg3 arg4 harg4 arg5 harg5 arg6 harg6 arg7 harg7 hc0 hc1 hc2 x0 x1)]
  unfold kernelRun0_A
  dsimp only
  sl_unfold_words
  rw [View.canon_cons_unit_zero (S := S4x512x1) hz3]
  simp only [View.readAt_eq_ld, harg2.read_unread, harg3.read_unread, harg5.read_unread, harg6.read_unread, harg7.read_unread,
    View.ld_unit_zero (S := S4x512x1) hz3, View.ld_unit_zero (S := S4x512x256) hz3, View.readCov_unit_zero (S := S4x512x1) _ hz3]

theorem sout0_A_1_eq (hc0 : cond0_0 i) (hc1 : cond0_1 i) (hc2 : ¬cond0_2 i) :
    sout0_A_1 (F := F) c i arg2 harg2 arg3 harg3 arg4 harg4 arg5 harg5 arg6 harg6 arg7 harg7 hc0 hc1 hc2 x0 x1
      = k0_pay9 x0 x1 (k0_pay4 (F := F)) (k0_pay4 (F := F)) (k0_pay5 (F := F)) := by
  unfold sout0_A_1
  rw [View.read_writes_eq_canon _ _ _ (scover0_A_1 c i arg2 harg2 arg3 harg3 arg4 harg4 arg5 harg5 arg6 harg6 arg7 harg7 hc0 hc1 hc2 x0 x1)]
  unfold kernelRun0_A
  dsimp only
  sl_unfold_words
  rw [View.canon_cons_unit_zero (S := S4x512x1) hz3]
  simp only [View.readAt_eq_ld, harg2.read_unread, harg3.read_unread, harg5.read_unread, harg6.read_unread, harg7.read_unread,
    View.ld_unit_zero (S := S4x512x1) hz3, View.ld_unit_zero (S := S4x512x256) hz3, View.readCov_unit_zero (S := S4x512x1) _ hz3]

theorem sout0_A_2_eq (hc0 : cond0_0 i) (hc1 : cond0_1 i) (hc2 : ¬cond0_2 i) :
    sout0_A_2 (F := F) c i arg2 harg2 arg3 harg3 arg4 harg4 arg5 harg5 arg6 harg6 arg7 harg7 hc0 hc1 hc2 x0 x1
      = k0_pay2 (k0_pay7 x0 x1) := by
  unfold sout0_A_2
  rw [View.read_writes_eq_canon _ _ _ (scover0_A_2 c i arg2 harg2 arg3 harg3 arg4 harg4 arg5 harg5 arg6 harg6 arg7 harg7 hc0 hc1 hc2 x0 x1)]
  unfold kernelRun0_A
  dsimp only
  sl_unfold_words
  rw [View.canon_cons_unit_zero (S := S4x512x1) hz3]
  simp only [View.readAt_eq_ld, harg2.read_unread, harg3.read_unread, harg5.read_unread, harg6.read_unread, harg7.read_unread,
    View.ld_unit_zero (S := S4x512x1) hz3, View.ld_unit_zero (S := S4x512x256) hz3, View.readCov_unit_zero (S := S4x512x1) _ hz3]

/-! ## First key tile, off the diagonal -/

theorem sout0_D_0_eq (hc0 : cond0_0 i) (hc1 : ¬cond0_1 i) (hc2 : ¬cond0_2 i) :
    sout0_D_0 (F := F) c i arg2 harg2 arg3 harg3 arg4 harg4 arg5 harg5 arg6 harg6 arg7 harg7 hc0 hc1 hc2 x0 x1
      = k0_pay1 (k0_pay8 x0 x1 (k0_pay4 (F := F))) := by
  unfold sout0_D_0
  rw [View.read_writes_eq_canon _ _ _ (scover0_D_0 c i arg2 harg2 arg3 harg3 arg4 harg4 arg5 harg5 arg6 harg6 arg7 harg7 hc0 hc1 hc2 x0 x1)]
  unfold kernelRun0_D
  dsimp only
  sl_unfold_words
  rw [View.canon_cons_unit_zero (S := S4x512x1) hz3]
  simp only [View.readAt_eq_ld, harg2.read_unread, harg3.read_unread, harg5.read_unread, harg6.read_unread, harg7.read_unread,
    View.ld_unit_zero (S := S4x512x1) hz3, View.ld_unit_zero (S := S4x512x256) hz3, View.readCov_unit_zero (S := S4x512x1) _ hz3]

theorem sout0_D_1_eq (hc0 : cond0_0 i) (hc1 : ¬cond0_1 i) (hc2 : ¬cond0_2 i) :
    sout0_D_1 (F := F) c i arg2 harg2 arg3 harg3 arg4 harg4 arg5 harg5 arg6 harg6 arg7 harg7 hc0 hc1 hc2 x0 x1
      = k0_pay9 x0 x1 (k0_pay4 (F := F)) (k0_pay4 (F := F)) (k0_pay5 (F := F)) := by
  unfold sout0_D_1
  rw [View.read_writes_eq_canon _ _ _ (scover0_D_1 c i arg2 harg2 arg3 harg3 arg4 harg4 arg5 harg5 arg6 harg6 arg7 harg7 hc0 hc1 hc2 x0 x1)]
  unfold kernelRun0_D
  dsimp only
  sl_unfold_words
  rw [View.canon_cons_unit_zero (S := S4x512x1) hz3]
  simp only [View.readAt_eq_ld, harg2.read_unread, harg3.read_unread, harg5.read_unread, harg6.read_unread, harg7.read_unread,
    View.ld_unit_zero (S := S4x512x1) hz3, View.ld_unit_zero (S := S4x512x256) hz3, View.readCov_unit_zero (S := S4x512x1) _ hz3]

theorem sout0_D_2_eq (hc0 : cond0_0 i) (hc1 : ¬cond0_1 i) (hc2 : ¬cond0_2 i) :
    sout0_D_2 (F := F) c i arg2 harg2 arg3 harg3 arg4 harg4 arg5 harg5 arg6 harg6 arg7 harg7 hc0 hc1 hc2 x0 x1
      = k0_pay6 (F := F) := by
  unfold sout0_D_2
  rw [View.read_writes_eq_canon _ _ _ (scover0_D_2 c i arg2 harg2 arg3 harg3 arg4 harg4 arg5 harg5 arg6 harg6 arg7 harg7 hc0 hc1 hc2 x0 x1)]
  unfold kernelRun0_D
  dsimp only
  sl_unfold_words
  rw [View.canon_unit_zero hz3]

/-! ## A middle key tile, off the diagonal -/

theorem sout0_B_0_eq (hc0 : ¬cond0_0 i) (hc1 : ¬cond0_1 i) (hc2 : ¬cond0_2 i) :
    sout0_B_0 (F := F) c i arg2 harg2 arg3 harg3 arg4 harg4 arg5 harg5 arg6 harg6 arg7 harg7 hc0 hc1 hc2 x0 x1 xs0 xs1 xs2
      = k0_pay1 (k0_pay8 x0 x1 xs0) := by
  unfold sout0_B_0
  rw [View.read_writes_eq_canon _ _ _ (scover0_B_0 c i arg2 harg2 arg3 harg3 arg4 harg4 arg5 harg5 arg6 harg6 arg7 harg7 hc0 hc1 hc2 x0 x1 xs0 xs1 xs2)]
  unfold kernelRun0_B
  dsimp only
  sl_unfold_words
  rw [View.canon_unit_zero hz3]
  simp only [View.readAt_eq_ld, harg2.read_unread, harg3.read_unread, harg5.read_unread, harg6.read_unread, harg7.read_unread,
    View.ld_unit_zero (S := S4x512x1) hz3, View.ld_unit_zero (S := S4x512x256) hz3]

theorem sout0_B_1_eq (hc0 : ¬cond0_0 i) (hc1 : ¬cond0_1 i) (hc2 : ¬cond0_2 i) :
    sout0_B_1 (F := F) c i arg2 harg2 arg3 harg3 arg4 harg4 arg5 harg5 arg6 harg6 arg7 harg7 hc0 hc1 hc2 x0 x1 xs0 xs1 xs2
      = k0_pay9 x0 x1 xs0 xs0 xs1 := by
  unfold sout0_B_1
  rw [View.read_writes_eq_canon _ _ _ (scover0_B_1 c i arg2 harg2 arg3 harg3 arg4 harg4 arg5 harg5 arg6 harg6 arg7 harg7 hc0 hc1 hc2 x0 x1 xs0 xs1 xs2)]
  unfold kernelRun0_B
  dsimp only
  sl_unfold_words
  rw [View.canon_unit_zero hz3]
  simp only [View.readAt_eq_ld, harg2.read_unread, harg3.read_unread, harg5.read_unread, harg6.read_unread, harg7.read_unread,
    View.ld_unit_zero (S := S4x512x1) hz3, View.ld_unit_zero (S := S4x512x256) hz3]

end Cert.InfoNCE.Kernel

end
-- ==== Proof.KernelCasesLast.lean ====
/-
  What the body leaves in the three carried statistics and in the output tile at a point on the diagonal past the first, or at a last key tile.

  A grid point is in one of six cases, by whether it is the first key tile of its query tile (the statistics
  are reset first), whether key tile and query tile coincide (the diagonal is recorded), and whether it is the
  last key tile (the output tile is written). In every case the contents left behind are the body's payload
  terms of the two input tiles and of what the point found in the statistics (after a reset: the reset
  values).
-/
import proofs.«164233_j1056561955228_1_alg».proof.Proof.Gen.KernelIdeal.Frame
import Idealize.ShloMosaic.Lib.Pipeline.Value

set_option maxRecDepth 16384

noncomputable section

namespace Cert.InfoNCE.Kernel

open Idealize.ShloMosaic Idealize.ShloMosaic.TcCoe Idealize.ShloMosaic.Tactic Idealize.SL.Sem
open Cert.KernelIdeal Cert.KernelIdeal.Gen

variable {F : FTy → Type} [FloatOps F]
variable (c : Dev nD) (i : grid0.Coords)
  (arg2 : Memref sig .tc .vmem S4x512x256 .bf16) (harg2 : arg2.IsWhole)
  (arg3 : Memref sig .tc .vmem S4x512x256 .bf16) (harg3 : arg3.IsWhole)
  (arg4 : Memref sig .tc .vmem S4x512 .f32) (harg4 : arg4.IsWhole)
  (arg5 : Memref sig .tc .vmem S4x512x1 .f32) (harg5 : arg5.IsWhole)
  (arg6 : Memref sig .tc .vmem S4x512x1 .f32) (harg6 : arg6.IsWhole)
  (arg7 : Memref sig .tc .vmem S4x512x1 .f32) (harg7 : arg7.IsWhole)
  (x0 x1 : Vec F S4x512x256 .bf16) (xs0 xs1 xs2 : Vec F S4x512x1 .f32)

/-- Every store and load of the body is through the whole-buffer rectangle, whose offsets are all zero. -/
private theorem hz3 : (![0, 0, 0] : Fin 3 → Nat) = fun _ => 0 := funext fun a => by fin_cases a <;> rfl
private theorem hz2 : (![0, 0] : Fin 2 → Nat) = fun _ => 0 := funext fun a => by fin_cases a <;> rfl

/-! ## The last key tile, off the diagonal

  Each buffer is stored at most once at such a point, over its whole extent, so what it holds afterwards is that
  store's payload; the payload's reads of the input tiles and of the statistics see the whole buffers' contents,
  and the output tile's reads of the statistics come after their stores and see the stored payloads. -/

theorem sout0_C_0_eq (hc0 : ¬cond0_0 i) (hc1 : ¬cond0_1 i) (hc2 : cond0_2 i) :
    sout0_C_0 (F := F) c i arg2 harg2 arg3 harg3 arg4 harg4 arg5 harg5 arg6 harg6 arg7 harg7 hc0 hc1 hc2 x0 x1 xs0 xs1 xs2
      = k0_pay1 (k0_pay8 x0 x1 xs0) := by
  unfold sout0_C_0
  rw [View.read_writes_eq_canon _ _ _ (scover0_C_0 c i arg2 harg2 arg3 harg3 arg4 harg4 arg5 harg5 arg6 harg6 arg7 harg7 hc0 hc1 hc2 x0 x1 xs0 xs1 xs2)]
  unfold kernelRun0_C
  dsimp only
  sl_unfold_words
  rw [View.canon_unit_zero hz3]
  simp only [View.readAt_eq_ld, harg2.read_unread, harg3.read_unread, harg5.read_unread, harg6.read_unread, View.ld_unit_zero (S := S4x512x256) hz3, View.ld_unit_zero (S := S4x512x1) hz3]

theorem sout0_C_1_eq (hc0 : ¬cond0_0 i) (hc1 : ¬cond0_1 i) (hc2 : cond0_2 i) :
    sout0_C_1 (F := F) c i arg2 harg2 arg3 harg3 arg4 harg4 arg5 harg5 arg6 harg6 arg7 harg7 hc0 hc1 hc2 x0 x1 xs0 xs1 xs2
      = k0_pay9 x0 x1 xs0 xs0 xs1 := by
  unfold sout0_C_1
  rw [View.read_writes_eq_canon _ _ _ (scover0_C_1 c i arg2 harg2 arg3 harg3 arg4 harg4 arg5 harg5 arg6 harg6 arg7 harg7 hc0 hc1 hc2 x0 x1 xs0 xs1 xs2)]
  unfold kernelRun0_C
  dsimp only
  sl_unfold_words
  rw [View.canon_unit_zero hz3]
  simp only [View.readAt_eq_ld, harg2.read_unread, harg3.read_unread, harg5.read_unread, harg6.read_unread, View.ld_unit_zero (S := S4x512x256) hz3, View.ld_unit_zero (S := S4x512x1) hz3]

theorem out0_C_2_eq (hc0 : ¬cond0_0 i) (hc1 : ¬cond0_1 i) (hc2 : cond0_2 i) :
    out0_C_2 (F := F) c i arg2 harg2 arg3 harg3 arg4 harg4 arg5 harg5 arg6 harg6 arg7 harg7 hc0 hc1 hc2 x0 x1 xs0 xs1 xs2
      = k0_pay3 (k0_pay1 (k0_pay8 x0 x1 xs0)) (k0_pay9 x0 x1 xs0 xs0 xs1) xs2 := by
  unfold out0_C_2
  rw [View.read_writes_eq_canon _ _ _ (cover0_C_2 c i arg2 harg2 arg3 harg3 arg4 harg4 arg5 harg5 arg6 harg6 arg7 harg7 hc0 hc1 hc2 x0 x1 xs0 xs1 xs2)]
  unfold kernelRun0_C
  dsimp only
  sl_unfold_words
  rw [View.canon_unit_zero hz2]
  simp only [View.readAt_eq_ld, harg2.read_unread, harg3.read_unread, harg5.read_unread, harg6.read_unread, harg7.read_unread, View.readCov_unit_zero (S := S4x512x1) _ hz3, View.ld_unit_zero (S := S4x512x256) hz3, View.ld_unit_zero (S := S4x512x1) hz3]

/-! ## A middle key tile on the diagonal -/

theorem sout0_E_0_eq (hc0 : ¬cond0_0 i) (hc1 : cond0_1 i) (hc2 : ¬cond0_2 i) :
    sout0_E_0 (F := F) c i arg2 harg2 arg3 harg3 arg4 harg4 arg5 harg5 arg6 harg6 arg7 harg7 hc0 hc1 hc2 x0 x1 xs0 xs1
      = k0_pay1 (k0_pay8 x0 x1 xs0) := by
  unfold sout0_E_0
  rw [View.read_writes_eq_canon _ _ _ (scover0_E_0 c i arg2 harg2 arg3 harg3 arg4 harg4 arg5 harg5 arg6 harg6 arg7 harg7 hc0 hc1 hc2 x0 x1 xs0 xs1)]
  unfold kernelRun0_E
  dsimp only
  sl_unfold_words
  rw [View.canon_unit_zero hz3]
  simp only [View.readAt_eq_ld, harg2.read_unread, harg3.read_unread, harg5.read_unread, harg6.read_unread, View.ld_unit_zero (S := S4x512x256) hz3, View.ld_unit_zero (S := S4x512x1) hz3]

theorem sout0_E_1_eq (hc0 : ¬cond0_0 i) (hc1 : cond0_1 i) (hc2 : ¬cond0_2 i) :
    sout0_E_1 (F := F) c i arg2 harg2 arg3 harg3 arg4 harg4 arg5 harg5 arg6 harg6 arg7 harg7 hc0 hc1 hc2 x0 x1 xs0 xs1
      = k0_pay9 x0 x1 xs0 xs0 xs1 := by
  unfold sout0_E_1
  rw [View.read_writes_eq_canon _ _ _ (scover0_E_1 c i arg2 harg2 arg3 harg3 arg4 harg4 arg5 harg5 arg6 harg6 arg7 harg7 hc0 hc1 hc2 x0 x1 xs0 xs1)]
  unfold kernelRun0_E
  dsimp only
  sl_unfold_words
  rw [View.canon_unit_zero hz3]
  simp only [View.readAt_eq_ld, harg2.read_unread, harg3.read_unread, harg5.read_unread, harg6.read_unread, View.ld_unit_zero (S := S4x512x256) hz3, View.ld_unit_zero (S := S4x512x1) hz3]

theorem sout0_E_2_eq (hc0 : ¬cond0_0 i) (hc1 : cond0_1 i) (hc2 : ¬cond0_2 i) :
    sout0_E_2 (F := F) c i arg2 harg2 arg3 harg3 arg4 harg4 arg5 harg5 arg6 harg6 arg7 harg7 hc0 hc1 hc2 x0 x1 xs0 xs1
      = k0_pay2 (k0_pay7 x0 x1) := by
  unfold sout0_E_2
  rw [View.read_writes_eq_canon _ _ _ (scover0_E_2 c i arg2 harg2 arg3 harg3 arg4 harg4 arg5 harg5 arg6 harg6 arg7 harg7 hc0 hc1 hc2 x0 x1 xs0 xs1)]
  unfold kernelRun0_E
  dsimp only
  sl_unfold_words
  rw [View.canon_unit_zero hz3]
  simp only [View.readAt_eq_ld, harg2.read_unread, harg3.read_unread, View.ld_unit_zero (S := S4x512x256) hz3]

/-! ## The last key tile on the diagonal (the very last point) -/

theorem sout0_F_0_eq (hc0 : ¬cond0_0 i) (hc1 : cond0_1 i) (hc2 : cond0_2 i) :
    sout0_F_0 (F := F) c i arg2 harg2 arg3 harg3 arg4 harg4 arg5 harg5 arg6 harg6 arg7 harg7 hc0 hc1 hc2 x0 x1 xs0 xs1
      = k0_pay1 (k0_pay8 x0 x1 xs0) := by
  unfold sout0_F_0
  rw [View.read_writes_eq_canon _ _ _ (scover0_F_0 c i arg2 harg2 arg3 harg3 arg4 harg4 arg5 harg5 arg6 harg6 arg7 harg7 hc0 hc1 hc2 x0 x1 xs0 xs1)]
  unfold kernelRun0_F
  dsimp only
  sl_unfold_words
  rw [View.canon_unit_zero hz3]
  simp only [View.readAt_eq_ld, harg2.read_unread, harg3.read_unread, harg5.read_unread, harg6.read_unread, View.ld_unit_zero (S := S4x512x256) hz3, View.ld_unit_zero (S := S4x512x1) hz3]

theorem sout0_F_1_eq (hc0 : ¬cond0_0 i) (hc1 : cond0_1 i) (hc2 : cond0_2 i) :
    sout0_F_1 (F := F) c i arg2 harg2 arg3 harg3 arg4 harg4 arg5 harg5 arg6 harg6 arg7 harg7 hc0 hc1 hc2 x0 x1 xs0 xs1
      = k0_pay9 x0 x1 xs0 xs0 xs1 := by
  unfold sout0_F_1
  rw [View.read_writes_eq_canon _ _ _ (scover0_F_1 c i arg2 harg2 arg3 harg3 arg4 harg4 arg5 harg5 arg6 harg6 arg7 harg7 hc0 hc1 hc2 x0 x1 xs0 xs1)]
  unfold kernelRun0_F
  dsimp only
  sl_unfold_words
  rw [View.canon_unit_zero hz3]
  simp only [View.readAt_eq_ld, harg2.read_unread, harg3.read_unread, harg5.read_unread, harg6.read_unread, View.ld_unit_zero (S := S4x512x256) hz3, View.ld_unit_zero (S := S4x512x1) hz3]

theorem sout0_F_2_eq (hc0 : ¬cond0_0 i) (hc1 : cond0_1 i) (hc2 : cond0_2 i) :
    sout0_F_2 (F := F) c i arg2 harg2 arg3 harg3 arg4 harg4 arg5 harg5 arg6 harg6 arg7 harg7 hc0 hc1 hc2 x0 x1 xs0 xs1
      = k0_pay2 (k0_pay7 x0 x1) := by
  unfold sout0_F_2
  rw [View.read_writes_eq_canon _ _ _ (scover0_F_2 c i arg2 harg2 arg3 harg3 arg4 harg4 arg5 harg5 arg6 harg6 arg7 harg7 hc0 hc1 hc2 x0 x1 xs0 xs1)]
  unfold kernelRun0_F
  dsimp only
  sl_unfold_words
  rw [View.canon_unit_zero hz3]
  simp only [View.readAt_eq_ld, harg2.read_unread, harg3.read_unread, View.ld_unit_zero (S := S4x512x256) hz3]

theorem out0_F_2_eq (hc0 : ¬cond0_0 i) (hc1 : cond0_1 i) (hc2 : cond0_2 i) :
    out0_F_2 (F := F) c i arg2 harg2 arg3 harg3 arg4 harg4 arg5 harg5 arg6 harg6 arg7 harg7 hc0 hc1 hc2 x0 x1 xs0 xs1
      = k0_pay3 (k0_pay1 (k0_pay8 x0 x1 xs0)) (k0_pay9 x0 x1 xs0 xs0 xs1) (k0_pay2 (k0_pay7 x0 x1)) := by
  unfold out0_F_2
  rw [View.read_writes_eq_canon _ _ _ (cover0_F_2 c i arg2 harg2 arg3 harg3 arg4 harg4 arg5 harg5 arg6 harg6 arg7 harg7 hc0 hc1 hc2 x0 x1 xs0 xs1)]
  unfold kernelRun0_F
  dsimp only
  sl_unfold_words
  rw [View.canon_unit_zero hz2]
  simp only [View.readAt_eq_ld, harg2.read_unread, harg3.read_unread, harg5.read_unread, harg6.read_unread, View.readCov_unit_zero (S := S4x512x1) _ hz3, View.ld_unit_zero (S := S4x512x256) hz3, View.ld_unit_zero (S := S4x512x1) hz3]

end Cert.InfoNCE.Kernel

end
-- ==== Proof.KernelBlocks.lean ====
/-
  What the two input windows hold at a grid point.

  The grid is 8 query tiles × 8 key tiles, point t = 8·(query tile) + (key tile). The first window stages the
  query tile t / 8 of the second input, the second window the key tile t % 8 of the first input; both arrays
  reach the region through a change of float format, which is the identity on extended reals. So entry
  (b, q, d) of the query block is the second input at (b, 512·(t/8) + q, d), and entry (b, k, d) of the key
  block is the first input at (b, 512·(t%8) + k, d).
-/
import proofs.«164233_j1056561955228_1_alg».proof.Proof.Gen.KernelIdeal.Frame
import proofs.«164233_j1056561955228_1_alg».proof.Proof.Spec
import Idealize.ShloMosaic.Lib.StableHlo.Run
import Idealize.ShloMosaic.Lib.ValueIdx
import Idealize.ShloMosaic.Lib.Pipeline.Value

set_option maxRecDepth 16384

noncomputable section

namespace Cert.InfoNCE.Kernel

open Idealize.ShloMosaic Idealize.ShloMosaic.TcCoe Idealize.ShloMosaic.ValueIdx Idealize.SL.Sem Idealize.ShloMosaic.StableHlo
open Cert.InfoNCE Cert.KernelIdeal Cert.KernelIdeal.Gen

variable (m : (ℓ : Loc nD τ sig) → Buf (Elt Ideal) ℓ)

/-- The first input as the program's memory holds it on core `c`. -/
abbrev inA (c : Dev nD) : FVec Ideal S4x4096x256 .f32 := m ((c : Thread nD τ).loc main_arg0)
/-- The second input. -/
abbrev inB (c : Dev nD) : FVec Ideal S4x4096x256 .f32 := m ((c : Thread nD τ).loc main_arg1)

/-- The query block at point `t`. -/
abbrev qblk (c : Dev nD) (t : Fin cfg0.N) : FVec Ideal S4x512x256 .bf16 := iblk m c 0 t
/-- The key block at point `t`. -/
abbrev kblk (c : Dev nD) (t : Fin cfg0.N) : FVec Ideal S4x512x256 .bf16 := iblk m c 1 t

/-- The array the first window reads is the second input (the format change is the identity). -/
theorem V_main_v1 (c : Dev nD) (i : S4x4096x256.Idx) : V m c main_v1 i = inB m c i := by
  have e : (V m c main_v1 : S4x4096x256.Idx → EReal) = truncf (F := Ideal) .bf16 (inB m c) Facts₀.bitsLt_bf16_f32 := by
    show StableHlo.after hostOps0 (fun b => m (c, b)) (Proc.devRef .tc main_v1) = _
    after_results
  rw [e]; rfl

/-- The array the second window reads is the first input. -/
theorem V_main_v0 (c : Dev nD) (i : S4x4096x256.Idx) : V m c main_v0 i = inA m c i := by
  have e : (V m c main_v0 : S4x4096x256.Idx → EReal) = truncf (F := Ideal) .bf16 (inA m c) Facts₀.bitsLt_bf16_f32 := by
    show StableHlo.after hostOps0 (fun b => m (c, b)) (Proc.devRef .tc main_v0) = _
    after_results
  rw [e]; rfl

theorem tix_val (j : ℕ) (hj : j < 8) (k : Fin 512) : (tix j k).val = 512 * j + k.val := by
  unfold tix; show (512 * j + k.val) % 4096 = _; have := k.isLt; omega

/-- Entry (b, q, d) of the query block. -/
theorem qblk_apply (c : Dev nD) (t : Fin cfg0.N) (b : Fin 4) (q : Fin 512) (d : Fin 256) :
    qblk m c t (ix3 b q d) = inB m c (ix3 b (tix (t.val / 8) q) d) := by
  have hi : ∀ t : Fin cfg0.N, win0_0.index t 0 = 0 ∧ win0_0.index t 1 = t.val / 8 ∧ win0_0.index t 2 = 0 :=
    (by decide +kernel : ∀ t : Fin grid0.N, _)
  have hN : t.val < 64 := lt_of_lt_of_eq t.isLt (show cfg0.N = 64 from N_0)
  rw [← V_main_v1]
  unfold qblk iblk
  rw [View.read_apply]
  show V m c main_v1 _ = V m c main_v1 _
  congr 1
  funext a
  apply Fin.ext
  match a with
  | ⟨0, _⟩ => show win0_0.index t 0 * 4 + 1 * b.val = b.val; rw [(hi t).1]; omega
  | ⟨1, _⟩ => show win0_0.index t 1 * 512 + 1 * q.val = (tix (t.val / 8) q).val; rw [(hi t).2.1, tix_val _ (by omega)]; omega
  | ⟨2, _⟩ => show win0_0.index t 2 * 256 + 1 * d.val = d.val; rw [(hi t).2.2]; omega

/-- Entry (b, k, d) of the key block. -/
theorem kblk_apply (c : Dev nD) (t : Fin cfg0.N) (b : Fin 4) (k : Fin 512) (d : Fin 256) :
    kblk m c t (ix3 b k d) = inA m c (ix3 b (tix (t.val % 8) k) d) := by
  have hi : ∀ t : Fin cfg0.N, win0_1.index t 0 = 0 ∧ win0_1.index t 1 = t.val % 8 ∧ win0_1.index t 2 = 0 :=
    (by decide +kernel : ∀ t : Fin grid0.N, _)
  rw [← V_main_v0]
  unfold kblk iblk
  rw [View.read_apply]
  show V m c main_v0 _ = V m c main_v0 _
  congr 1
  funext a
  apply Fin.ext
  match a with
  | ⟨0, _⟩ => show win0_1.index t 0 * 4 + 1 * b.val = b.val; rw [(hi t).1]; omega
  | ⟨1, _⟩ => show win0_1.index t 1 * 512 + 1 * k.val = (tix (t.val % 8) k).val; rw [(hi t).2.1, tix_val _ (by omega)]; omega
  | ⟨2, _⟩ => show win0_1.index t 2 * 256 + 1 * d.val = d.val; rw [(hi t).2.2]; omega

end Cert.InfoNCE.Kernel

end
-- ==== Proof.KernelSteps.lean ====
/-
  One grid point's effect on the carried statistics, uniformly in the control case.

  Whatever case a point is in, what it leaves in the running maximum, the running sum and the diagonal is a
  payload term of its two input tiles and of what it found: the reset values at a first key tile, else what
  the point before left. The diagonal is recorded on the diagonal tile, reset at an off-diagonal first key
  tile, and kept otherwise; at a last key tile the output tile is the closing formula of the three
  statistics the point itself leaves.
-/
import proofs.«164233_j1056561955228_1_alg».proof.Proof.KernelCasesFirst
import proofs.«164233_j1056561955228_1_alg».proof.Proof.KernelCasesLast
import proofs.«164233_j1056561955228_1_alg».proof.Proof.KernelBlocks

set_option maxRecDepth 16384

noncomputable section

namespace Cert.InfoNCE.Kernel

open Idealize.ShloMosaic Idealize.ShloMosaic.TcCoe Idealize.SL.Sem
open Cert.InfoNCE Cert.KernelIdeal Cert.KernelIdeal.Gen

variable (m : (ℓ : Loc nD τ sig) → Buf (Elt Ideal) ℓ) (c : Dev nD)

/-- The running maximum after point `t`. -/
abbrev statM (t : Fin cfg0.N) : FVec Ideal S4x512x1 .f32 := (outsAt0 m c t.val t.isLt).2.1
/-- The running sum after point `t`. -/
abbrev statL (t : Fin cfg0.N) : FVec Ideal S4x512x1 .f32 := (outsAt0 m c t.val t.isLt).2.2.1
/-- The recorded diagonal after point `t`. -/
abbrev statD (t : Fin cfg0.N) : FVec Ideal S4x512x1 .f32 := (outsAt0 m c t.val t.isLt).2.2.2
/-- The output tile's staging contents after point `t`. -/
abbrev outT (t : Fin cfg0.N) : FVec Ideal S4x512 .f32 := (outsAt0 m c t.val t.isLt).1

/-- The point before `t` (meaningful when `t` is not the first). -/
abbrev prevPt (t : Fin cfg0.N) : Fin cfg0.N := ⟨t.val - 1, Nat.lt_of_le_of_lt (Nat.sub_le _ _) t.isLt⟩

theorem statM_reset (t : Fin cfg0.N) (h0 : t.val % 8 = 0) :
    statM m c t = k0_pay1 (k0_pay8 (qblk m c t) (kblk m c t) (k0_pay4 (F := Ideal))) := by
  have hN : t.val < 64 := lt_of_lt_of_eq t.isLt (show cfg0.N = 64 from N_0)
  have h2 : ¬t.val % 8 = 7 := by omega
  show (outsAt0 m c t.val t.isLt).2.1 = _
  by_cases h1 : t.val % 9 = 0
  · rw [outsAt0_A m c t h0 h1 h2]
    dsimp only
    exact sout0_A_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) ((hcond0_0 t).mpr h0) ((hcond0_1 t).mpr h1) (fun h => h2 ((hcond0_2 t).mp h))
  · rw [outsAt0_D m c t h0 h1 h2]
    dsimp only
    exact sout0_D_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) ((hcond0_0 t).mpr h0) (fun h => h1 ((hcond0_1 t).mp h)) (fun h => h2 ((hcond0_2 t).mp h))

theorem statL_reset (t : Fin cfg0.N) (h0 : t.val % 8 = 0) :
    statL m c t = k0_pay9 (qblk m c t) (kblk m c t) (k0_pay4 (F := Ideal)) (k0_pay4 (F := Ideal)) (k0_pay5 (F := Ideal)) := by
  have hN : t.val < 64 := lt_of_lt_of_eq t.isLt (show cfg0.N = 64 from N_0)
  have h2 : ¬t.val % 8 = 7 := by omega
  show (outsAt0 m c t.val t.isLt).2.2.1 = _
  by_cases h1 : t.val % 9 = 0
  · rw [outsAt0_A m c t h0 h1 h2]
    dsimp only
    exact sout0_A_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) ((hcond0_0 t).mpr h0) ((hcond0_1 t).mpr h1) (fun h => h2 ((hcond0_2 t).mp h))
  · rw [outsAt0_D m c t h0 h1 h2]
    dsimp only
    exact sout0_D_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) ((hcond0_0 t).mpr h0) (fun h => h1 ((hcond0_1 t).mp h)) (fun h => h2 ((hcond0_2 t).mp h))

theorem statM_next (t : Fin cfg0.N) (h0 : ¬t.val % 8 = 0) :
    statM m c t = k0_pay1 (k0_pay8 (qblk m c t) (kblk m c t) (statM m c (prevPt t))) := by
  have hN : t.val < 64 := lt_of_lt_of_eq t.isLt (show cfg0.N = 64 from N_0)
  show (outsAt0 m c t.val t.isLt).2.1 = _
  by_cases h1 : t.val % 9 = 0
  · by_cases h2 : t.val % 8 = 7
    · rw [outsAt0_F m c t h0 h1 h2]
      dsimp only
      exact sout0_F_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (fun h => h0 ((hcond0_0 t).mp h)) ((hcond0_1 t).mpr h1) ((hcond0_2 t).mpr h2)
    · rw [outsAt0_E m c t h0 h1 h2]
      dsimp only
      exact sout0_E_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (fun h => h0 ((hcond0_0 t).mp h)) ((hcond0_1 t).mpr h1) (fun h => h2 ((hcond0_2 t).mp h))
  · by_cases h2 : t.val % 8 = 7
    · rw [outsAt0_C m c t h0 h1 h2]
      dsimp only
      exact sout0_C_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) ((hcond0_2 t).mpr h2)
    · rw [outsAt0_B m c t h0 h1 h2]
      dsimp only
      exact sout0_B_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) (fun h => h2 ((hcond0_2 t).mp h))

theorem statL_next (t : Fin cfg0.N) (h0 : ¬t.val % 8 = 0) :
    statL m c t = k0_pay9 (qblk m c t) (kblk m c t) (statM m c (prevPt t)) (statM m c (prevPt t)) (statL m c (prevPt t)) := by
  have hN : t.val < 64 := lt_of_lt_of_eq t.isLt (show cfg0.N = 64 from N_0)
  show (outsAt0 m c t.val t.isLt).2.2.1 = _
  by_cases h1 : t.val % 9 = 0
  · by_cases h2 : t.val % 8 = 7
    · rw [outsAt0_F m c t h0 h1 h2]
      dsimp only
      exact sout0_F_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (fun h => h0 ((hcond0_0 t).mp h)) ((hcond0_1 t).mpr h1) ((hcond0_2 t).mpr h2)
    · rw [outsAt0_E m c t h0 h1 h2]
      dsimp only
      exact sout0_E_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (fun h => h0 ((hcond0_0 t).mp h)) ((hcond0_1 t).mpr h1) (fun h => h2 ((hcond0_2 t).mp h))
  · by_cases h2 : t.val % 8 = 7
    · rw [outsAt0_C m c t h0 h1 h2]
      dsimp only
      exact sout0_C_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) ((hcond0_2 t).mpr h2)
    · rw [outsAt0_B m c t h0 h1 h2]
      dsimp only
      exact sout0_B_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) (fun h => h2 ((hcond0_2 t).mp h))

end Cert.InfoNCE.Kernel

end
-- ==== Proof.KernelStepsDiag.lean ====
/-
  One grid point's effect on the recorded diagonal and on the output tile, uniformly in the control case.

  The diagonal is recorded on the diagonal tile, reset at an off-diagonal first key tile, and kept otherwise;
  at a last key tile the output tile is the closing formula of the three statistics the point itself leaves.
-/
import proofs.«164233_j1056561955228_1_alg».proof.Proof.KernelSteps

set_option maxRecDepth 16384

noncomputable section

namespace Cert.InfoNCE.Kernel

open Idealize.ShloMosaic Idealize.ShloMosaic.TcCoe Idealize.SL.Sem
open Cert.InfoNCE Cert.KernelIdeal Cert.KernelIdeal.Gen

variable (m : (ℓ : Loc nD τ sig) → Buf (Elt Ideal) ℓ) (c : Dev nD)

theorem statD_diag (t : Fin cfg0.N) (h1 : t.val % 9 = 0) :
    statD m c t = k0_pay2 (k0_pay7 (qblk m c t) (kblk m c t)) := by
  have hN : t.val < 64 := lt_of_lt_of_eq t.isLt (show cfg0.N = 64 from N_0)
  by_cases h0 : t.val % 8 = 0
  · -- the very first point: first key tile and diagonal at once
    have h2 : ¬t.val % 8 = 7 := by omega
    show (outsAt0 m c t.val t.isLt).2.2.2 = _
    rw [outsAt0_A m c t h0 h1 h2]
    dsimp only
    exact sout0_A_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) ((hcond0_0 t).mpr h0) ((hcond0_1 t).mpr h1) (fun h => h2 ((hcond0_2 t).mp h))
  · by_cases h2 : t.val % 8 = 7
    · -- the very last point: diagonal and last key tile at once
      show (outsAt0 m c t.val t.isLt).2.2.2 = _
      rw [outsAt0_F m c t h0 h1 h2]
      dsimp only
      exact sout0_F_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (fun h => h0 ((hcond0_0 t).mp h)) ((hcond0_1 t).mpr h1) ((hcond0_2 t).mpr h2)
    · -- a middle key tile on the diagonal
      show (outsAt0 m c t.val t.isLt).2.2.2 = _
      rw [outsAt0_E m c t h0 h1 h2]
      dsimp only
      exact sout0_E_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (fun h => h0 ((hcond0_0 t).mp h)) ((hcond0_1 t).mpr h1) (fun h => h2 ((hcond0_2 t).mp h))

theorem statD_reset (t : Fin cfg0.N) (h0 : t.val % 8 = 0) (h1 : ¬t.val % 9 = 0) :
    statD m c t = k0_pay6 (F := Ideal) := by
  -- a first key tile is never a last one
  have h2 : ¬t.val % 8 = 7 := by omega
  show (outsAt0 m c t.val t.isLt).2.2.2 = _
  rw [outsAt0_D m c t h0 h1 h2]
  dsimp only
  exact sout0_D_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) ((hcond0_0 t).mpr h0) (fun h => h1 ((hcond0_1 t).mp h)) (fun h => h2 ((hcond0_2 t).mp h))

theorem statD_keep (t : Fin cfg0.N) (h0 : ¬t.val % 8 = 0) (h1 : ¬t.val % 9 = 0) :
    statD m c t = statD m c (prevPt t) := by
  by_cases h2 : t.val % 8 = 7
  · -- the last key tile, off the diagonal: nothing is stored into the diagonal
    show (outsAt0 m c t.val t.isLt).2.2.2 = (outsAt0 m c (t.val - 1) (Nat.lt_of_le_of_lt (Nat.sub_le _ _) t.isLt)).2.2.2
    rw [outsAt0_C m c t h0 h1 h2]
    dsimp only
    exact rfl
  · -- a middle key tile, off the diagonal: nothing is stored into the diagonal
    show (outsAt0 m c t.val t.isLt).2.2.2 = (outsAt0 m c (t.val - 1) (Nat.lt_of_le_of_lt (Nat.sub_le _ _) t.isLt)).2.2.2
    rw [outsAt0_B m c t h0 h1 h2]
    dsimp only
    exact rfl

theorem outT_last (t : Fin cfg0.N) (h2 : t.val % 8 = 7) :
    outT m c t = k0_pay3 (statM m c t) (statL m c t) (statD m c t) := by
  -- a last key tile is never a first one
  have h0 : ¬t.val % 8 = 0 := by omega
  by_cases h1 : t.val % 9 = 0
  · -- on the diagonal: all three statistics the tile reads were stored by this point
    show (outsAt0 m c t.val t.isLt).1 = k0_pay3 (outsAt0 m c t.val t.isLt).2.1 (outsAt0 m c t.val t.isLt).2.2.1 (outsAt0 m c t.val t.isLt).2.2.2
    rw [outsAt0_F m c t h0 h1 h2]
    dsimp only
    rw [sout0_F_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (fun h => h0 ((hcond0_0 t).mp h)) ((hcond0_1 t).mpr h1) ((hcond0_2 t).mpr h2),
      sout0_F_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (fun h => h0 ((hcond0_0 t).mp h)) ((hcond0_1 t).mpr h1) ((hcond0_2 t).mpr h2),
      sout0_F_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (fun h => h0 ((hcond0_0 t).mp h)) ((hcond0_1 t).mpr h1) ((hcond0_2 t).mpr h2)]
    exact out0_F_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (fun h => h0 ((hcond0_0 t).mp h)) ((hcond0_1 t).mpr h1) ((hcond0_2 t).mpr h2)
  · -- off the diagonal: the maximum and the sum were stored by this point, the diagonal is the one found
    show (outsAt0 m c t.val t.isLt).1 = k0_pay3 (outsAt0 m c t.val t.isLt).2.1 (outsAt0 m c t.val t.isLt).2.2.1 (outsAt0 m c t.val t.isLt).2.2.2
    rw [outsAt0_C m c t h0 h1 h2]
    dsimp only
    rw [sout0_C_0_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) ((hcond0_2 t).mpr h2),
      sout0_C_1_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) ((hcond0_2 t).mpr h2)]
    exact out0_C_2_eq (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 (fun h => h0 ((hcond0_0 t).mp h)) (fun h => h1 ((hcond0_1 t).mp h)) ((hcond0_2 t).mpr h2)

end Cert.InfoNCE.Kernel

end
-- ==== Proof.KernelPayload.lean ====
/-
  The body's arithmetic, read entry by entry on extended reals.

  For a query tile `x0` and a key tile `x1` (each batch × 512 × feature) the body forms the 512 × 512 scores
  of every query position against every key position, and from them, per (batch, query position):
  the new running maximum, the new running sum, the diagonal score (a masked row sum), and at the end the
  closing formula. Each is stated at the entry (b, q) in terms of the tile update functions of the
  specification.
-/
import proofs.«164233_j1056561955228_1_alg».proof.Proof.Gen.KernelIdeal.Skeleton
import proofs.«164233_j1056561955228_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.InfoNCE.Kernel

open Idealize.ShloMosaic Idealize.ShloMosaic.ValueIdx Cert.InfoNCE Cert.KernelIdeal Cert.KernelIdeal.Gen

/-! ## Three layout readings with a trailing unit axis -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## The contraction's operand indices, axis by axis

The scores contract the feature axis (axis 2 of both tiles) with the batch axis (axis 0) carried along: at output
index `i` and contraction position `c` the query tile is read at `(i 0, i 1, c)` and the key tile at `(i 0, i 2, c)`. -/

theorem lhs_score_0 (i : S4x512x512.Idx) (c : dot_S4x512x256_S4x512x256_S4x512x512_2_2_1_1_0_0.contr.Idx) :
    (dot_S4x512x256_S4x512x256_S4x512x512_2_2_1_1_0_0.lhsIdx i c 0).val = (i 0).val := by
  unfold DotDims.lhsIdx
  rw [dif_pos (show (0 : Fin S4x512x256.rank) ∈ dot_S4x512x256_S4x512x256_S4x512x512_2_2_1_1_0_0.lhsBatch by decide)]
  rfl
theorem lhs_score_1 (i : S4x512x512.Idx) (c : dot_S4x512x256_S4x512x256_S4x512x512_2_2_1_1_0_0.contr.Idx) :
    (dot_S4x512x256_S4x512x256_S4x512x512_2_2_1_1_0_0.lhsIdx i c 1).val = (i 1).val := by
  unfold DotDims.lhsIdx
  rw [dif_neg (show ¬(1 : Fin S4x512x256.rank) ∈ dot_S4x512x256_S4x512x256_S4x512x512_2_2_1_1_0_0.lhsBatch by decide),
    dif_pos (show (1 : Fin S4x512x256.rank) ∈ dot_S4x512x256_S4x512x256_S4x512x512_2_2_1_1_0_0.lhsNonContracting by decide)]
  rfl
theorem lhs_score_2 (i : S4x512x512.Idx) (c : dot_S4x512x256_S4x512x256_S4x512x512_2_2_1_1_0_0.contr.Idx) :
    (dot_S4x512x256_S4x512x256_S4x512x512_2_2_1_1_0_0.lhsIdx i c 2).val = (c ⟨0, by decide⟩).val :=
  dot_S4x512x256_S4x512x256_S4x512x512_2_2_1_1_0_0.lhsIdx_val_of_single rfl i c
theorem rhs_score_0 (i : S4x512x512.Idx) (c : dot_S4x512x256_S4x512x256_S4x512x512_2_2_1_1_0_0.contr.Idx) :
    (dot_S4x512x256_S4x512x256_S4x512x512_2_2_1_1_0_0.rhsIdx i c 0).val = (i 0).val := by
  unfold DotDims.rhsIdx
  rw [dif_pos (show (0 : Fin S4x512x256.rank) ∈ dot_S4x512x256_S4x512x256_S4x512x512_2_2_1_1_0_0.rhsBatch by decide)]
  rfl
theorem rhs_score_1 (i : S4x512x512.Idx) (c : dot_S4x512x256_S4x512x256_S4x512x512_2_2_1_1_0_0.contr.Idx) :
    (dot_S4x512x256_S4x512x256_S4x512x512_2_2_1_1_0_0.rhsIdx i c 1).val = (i 2).val := by
  unfold DotDims.rhsIdx
  rw [dif_neg (show ¬(1 : Fin S4x512x256.rank) ∈ dot_S4x512x256_S4x512x256_S4x512x512_2_2_1_1_0_0.rhsBatch by decide),
    dif_pos (show (1 : Fin S4x512x256.rank) ∈ dot_S4x512x256_S4x512x256_S4x512x512_2_2_1_1_0_0.rhsNonContracting by decide)]
  rfl
theorem rhs_score_2 (i : S4x512x512.Idx) (c : dot_S4x512x256_S4x512x256_S4x512x512_2_2_1_1_0_0.contr.Idx) :
    (dot_S4x512x256_S4x512x256_S4x512x512_2_2_1_1_0_0.rhsIdx i c 2).val = (c ⟨0, by decide⟩).val :=
  dot_S4x512x256_S4x512x256_S4x512x512_2_2_1_1_0_0.rhsIdx_val_of_single rfl i c

/-- The product into the zero accumulator, at (b, q, k): the inner product of query row `q` with key row `k`. -/
theorem score_matmul_apply (x0 x1 : FVec Ideal S4x512x256 .bf16) (b : Fin 4) (q k : Fin 512) :
    FloatOps.matmul dot_S4x512x256_S4x512x256_S4x512x512_2_2_1_1_0_0 none x0 x1 (constant S4x512x512 .f32 0x00000000#32) (ix3 b q k)
      = ∑ d : Fin 256, x0 (ix3 b q d) * x1 (ix3 b k d) := by
  rw [Ideal.matmul_constant_zero_apply, ← Equiv.sum_comp (contrEquiv1 dot_S4x512x256_S4x512x256_S4x512x512_2_2_1_1_0_0 256 rfl rfl).symm]
  refine Finset.sum_congr rfl fun d _ => ?_
  have hd := contrEquiv1_symm_val dot_S4x512x256_S4x512x256_S4x512x512_2_2_1_1_0_0 256 rfl rfl d
  have el : dot_S4x512x256_S4x512x256_S4x512x512_2_2_1_1_0_0.lhsIdx (ix3 b q k) ((contrEquiv1 dot_S4x512x256_S4x512x256_S4x512x512_2_2_1_1_0_0 256 rfl rfl).symm d) = ix3 b q d :=
    funext fun a => Fin.ext (by
      match a with
      | ⟨0, _⟩ => exact lhs_score_0 _ _
      | ⟨1, _⟩ => exact lhs_score_1 _ _
      | ⟨2, _⟩ => exact (lhs_score_2 _ _).trans hd)
  have er : dot_S4x512x256_S4x512x256_S4x512x512_2_2_1_1_0_0.rhsIdx (ix3 b q k) ((contrEquiv1 dot_S4x512x256_S4x512x256_S4x512x512_2_2_1_1_0_0 256 rfl rfl).symm d) = ix3 b k d :=
    funext fun a => Fin.ext (by
      match a with
      | ⟨0, _⟩ => exact rhs_score_0 _ _
      | ⟨1, _⟩ => exact rhs_score_1 _ _
      | ⟨2, _⟩ => exact (rhs_score_2 _ _).trans hd)
  rw [el, er]

/-- Scores: the contraction over the feature axis, times the unit temperature. -/
theorem pay7_apply (x0 x1 : FVec Ideal S4x512x256 .bf16) (b : Fin 4) (q k : Fin 512) :
    k0_pay7 (F := Ideal) x0 x1 (ix3 b q k) = tileScore x0 x1 b q k := by
  unfold k0_pay7 tileScore
  rw [shapeCast_self x0, shapeCast_self x1]
  exact congrArg (· * Ideal.ofBits .f32 0x3F800000#32) (score_matmul_apply x0 x1 b q k)

/-! ## A reduction along the key axis, read at (b, q) -/

/-- The index `(b, q)` with key position `k` inserted on the reduced axis is `(b, q, k)`. -/
theorem lift_lane (h : S4x512x512.Reduces [2] S4x512) (b : Fin 4) (q k : Fin 512) :
    h.lift (ix2 b q) k = ix3 b q k := by
  funext a
  refine Fin.ext ?_
  match a with
  | ⟨0, _⟩ => rfl
  | ⟨1, _⟩ => rfl
  | ⟨2, _⟩ => rfl

/-- A row's maximum over the 512 key positions, folded from −∞. -/
theorem laneMax_apply (src : FVec Ideal S4x512x512 .f32) (b : Fin 4) (q : Fin 512) :
    multiReduction (F := Ideal) .maximumf [2] S4x512 src 0xFF800000#32 reduces_S4x512x512_S4x512 (.inl rfl) rfl (ix2 b q)
      = (Finset.univ : Finset (Fin 512)).fold max (Ideal.ofBits .f32 0xFF800000#32) (fun k => src (ix3 b q k)) := by
  refine (Ideal.multiReduction_maximumf_single src _ reduces_S4x512x512_S4x512 (.inl rfl) rfl (ix2 b q)).trans ?_
  exact congrArg ((Finset.univ : Finset (Fin 512)).fold max (Ideal.ofBits .f32 0xFF800000#32))
    (funext fun k => congrArg src (lift_lane _ b q k))

/-- A row's sum over the 512 key positions. -/
theorem laneSum_apply (src : FVec Ideal S4x512x512 .f32) (b : Fin 4) (q : Fin 512) :
    multiReduction (F := Ideal) .add [2] S4x512 src 0x00000000#32 reduces_S4x512x512_S4x512 (.inl rfl) rfl (ix2 b q)
      = ∑ k : Fin 512, src (ix3 b q k) := by
  refine (Ideal.multiReduction_add_single src _ reduces_S4x512x512_S4x512 (.inl rfl) rfl (ix2 b q)).trans ?_
  exact Finset.sum_congr rfl fun k _ => congrArg src (lift_lane _ b q k)

/-- The diagonal mask: the 32-bit words of two positions below 512 are equal exactly when the positions are. -/
theorem select_diag {α : Type} (q k : Fin 512) (A B : α) :
    Scalar.select (IntOp.cmpi .eq (BitVec.ofNat 32 q.val) (BitVec.ofNat 32 k.val)) A B
      = if q.val = k.val then A else B := by
  by_cases h : q.val = k.val
  · rw [if_pos h, h]
    have : IntOp.cmpi .eq (BitVec.ofNat 32 k.val) (BitVec.ofNat 32 k.val) = 1#1 := by
      simp [IntOp.cmpi]
    rw [this]; exact select_one A B
  · rw [if_neg h]
    have hne : BitVec.ofNat 32 q.val ≠ BitVec.ofNat 32 k.val := fun e => h (by
      have e' := congrArg BitVec.toNat e
      rw [BitVec.toNat_ofNat, BitVec.toNat_ofNat] at e'
      have := q.isLt; have := k.isLt; omega)
    have hb : (BitVec.ofNat 32 q.val == BitVec.ofNat 32 k.val) = false := beq_eq_false_iff_ne.mpr hne
    have : IntOp.cmpi .eq (BitVec.ofNat 32 q.val) (BitVec.ofNat 32 k.val) = 0#1 := by
      show BitVec.ofBool (BitVec.ofNat 32 q.val == BitVec.ofNat 32 k.val) = 0#1
      rw [hb]; rfl
    rw [this]; exact select_zero A B

/-- The new running maximum at (b, q). -/
theorem pay8_apply (x0 x1 : FVec Ideal S4x512x256 .bf16) (v10 : FVec Ideal S4x512x1 .f32) (b : Fin 4) (q : Fin 512) :
    k0_pay8 (F := Ideal) x0 x1 v10 (ix3 b q 0) = stepMax (tileScore x0 x1 b q) (v10 (ix3 b q 0)) := by
  unfold k0_pay8 stepMax
  refine congrArg (max (v10 (ix3 b q 0))) ?_
  refine (shapeCast_ab_ab1_apply _ _ b q 0).trans ?_
  refine (laneMax_apply _ b q).trans ?_
  exact congrArg ((Finset.univ : Finset (Fin 512)).fold max (Ideal.ofBits .f32 0xFF800000#32))
    (funext fun k => pay7_apply x0 x1 b q k)

/-- The new running sum at (b, q), when both reads of the old maximum see the same array. -/
theorem pay9_apply (x0 x1 : FVec Ideal S4x512x256 .bf16) (v10 v20 : FVec Ideal S4x512x1 .f32) (b : Fin 4) (q : Fin 512) :
    k0_pay9 (F := Ideal) x0 x1 v10 v10 v20 (ix3 b q 0)
      = stepSum (tileScore x0 x1 b q) (v10 (ix3 b q 0)) (v20 (ix3 b q 0)) := by
  unfold k0_pay9 stepSum
  rw [shapeCast_self]
  have h8 := pay8_apply x0 x1 v10 b q
  show Ideal.exp (v10 (ix3 b q 0) - k0_pay8 (F := Ideal) x0 x1 v10 (ix3 b q 0)) * v20 (ix3 b q 0)
      + shapeCast S4x512x1 _ shapeCasts_S4x512_S4x512x1 (ix3 b q 0) = _
  rw [shapeCast_ab_ab1_apply _ _ b q 0, laneSum_apply _ b q, h8]
  refine congrArg (Ideal.exp (v10 (ix3 b q 0) - stepMax (tileScore x0 x1 b q) (v10 (ix3 b q 0))) * v20 (ix3 b q 0) + ·) ?_
  refine Finset.sum_congr rfl fun k _ => ?_
  show Ideal.exp (k0_pay7 (F := Ideal) x0 x1 (ix3 b q k)
      - broadcastTo S4x512x512 (k0_pay8 (F := Ideal) x0 x1 v10) broadcasts_S4x512x1_S4x512x512 (ix3 b q k)) = _
  rw [broadcastTo_ab1_abc_apply _ _ b q k, h8, pay7_apply]

/-- The diagonal score at (b, q): the row's masked sum. -/
theorem pay2_apply (x0 x1 : FVec Ideal S4x512x256 .bf16) (b : Fin 4) (q : Fin 512) :
    k0_pay2 (F := Ideal) (k0_pay7 (F := Ideal) x0 x1) (ix3 b q 0) = stepDiag (tileScore x0 x1 b q) q := by
  unfold k0_pay2 stepDiag
  rw [shapeCast_self]
  refine (shapeCast_ab_ab1_apply _ _ b q 0).trans ?_
  refine (laneSum_apply _ b q).trans ?_
  refine Finset.sum_congr rfl fun k _ => ?_
  rw [select_apply, broadcast_apply]
  show Scalar.select (IntOp.cmpi .eq (iota .tc S4x512x512 32 [1] iota_S4x512x512_d1_w32 (ix3 b q k))
      (iota .tc S4x512x512 32 [2] iota_S4x512x512_d2_w32 (ix3 b q k))) _ _ = _
  rw [iota_single_apply, iota_single_apply, pay7_apply]
  exact select_diag q k _ _

/-- The closing formula at (b, q). -/
theorem pay3_apply (v37 v38 v41 : FVec Ideal S4x512x1 .f32) (b : Fin 4) (q : Fin 512) :
    k0_pay3 (F := Ideal) v37 v38 v41 (ix2 b q) = finish (v37 (ix3 b q 0)) (v38 (ix3 b q 0)) (v41 (ix3 b q 0)) := by
  unfold k0_pay3
  exact shapeCast_ab1_ab_apply _ _ b q

/-- Storing the maximum changes nothing entrywise. -/
theorem pay1_apply (v : FVec Ideal S4x512x1 .f32) (i : S4x512x1.Idx) : k0_pay1 (F := Ideal) v i = v i := by
  unfold k0_pay1
  exact congrFun (shapeCast_self v _) i

/-- The reset values: −∞ for the maximum, 0 for the sum and for the diagonal. -/
theorem pay4_apply (i : S4x512x1.Idx) : (k0_pay4 (F := Ideal)) i = Ideal.ofBits .f32 0xFF800000#32 := by
  unfold k0_pay4
  exact congrFun (shapeCast_self _ _) i

theorem pay5_apply (i : S4x512x1.Idx) : (k0_pay5 (F := Ideal)) i = Ideal.ofBits .f32 0x00000000#32 := by
  unfold k0_pay5
  exact congrFun (shapeCast_self _ _) i

theorem pay6_apply (i : S4x512x1.Idx) : (k0_pay6 (F := Ideal)) i = Ideal.ofBits .f32 0x00000000#32 := by
  unfold k0_pay6
  exact congrFun (shapeCast_self _ _) i

end Cert.InfoNCE.Kernel

end
-- ==== Proof.SoftmaxMath.lean ====
/-
  The streamed softmax statistics are the whole column's.

  Real side: after the eighth tile the running maximum is the column's maximum and the running rescaled sum
  is ∑ₛ exp(f s − max f); the step uses exp(μ − μ')·exp(x − μ) = exp(x − μ').
  Extended-real side: on finite scores each tile update (`stepMax`, `stepSum`, `stepDiag`, `finish`,
  `tileScore`) is the coercion of its real counterpart; the first tile starts from −∞ and 0, where
  exp(−∞ − μ') = 0 kills the empty old sum.
-/
import proofs.«164233_j1056561955228_1_alg».proof.Proof.Spec
import Mathlib.Data.Finset.Fold

noncomputable section

namespace Cert.InfoNCE

open Idealize.ShloMosaic Idealize.ShloMosaic.ValueIdx

/-! ## Constants and coercions -/

theorem ofBits_negInf : Ideal.ofBits .f32 0xFF800000#32 = (⊥ : EReal) := by
  simp [Ideal.ofBits, Ideal.ieee]

theorem ofBits_one : Ideal.ofBits .f32 0x3F800000#32 = (1 : EReal) := by
  simp [Ideal.ofBits, Ideal.ieee, -EReal.coe_mul]; norm_num

/-- The all-zero word is the real number 0. -/
private theorem ofBits_zero : Ideal.ofBits .f32 0x00000000#32 = (0 : EReal) := by
  simp [Ideal.ofBits, Ideal.ieee]

/-- The coercion ℝ → EReal commutes with a finite sum over any finset. -/
private theorem coe_finset_sum {ι : Type*} (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

theorem coe_sum {ι : Type*} [Fintype ι] (r : ι → ℝ) : ((∑ i, r i : ℝ) : EReal) = ∑ i, (r i : EReal) :=
  coe_finset_sum Finset.univ r

/-- The coercion is monotone, so it commutes with the binary maximum. -/
private theorem coe_max' (x y : ℝ) : ((max x y : ℝ) : EReal) = max (x : EReal) (y : EReal) :=
  EReal.coe_strictMono.monotone.map_max

theorem fold_max_bot_coe {ι : Type*} [Fintype ι] [Nonempty ι] (r : ι → ℝ) :
    (Finset.univ : Finset ι).fold max (⊥ : EReal) (fun i => (r i : EReal))
      = ((Finset.univ.sup' Finset.univ_nonempty r : ℝ) : EReal) := by
  apply le_antisymm
  · -- every folded term is the coercion of a value below the supremum
    refine (Finset.fold_max_le _).mpr ⟨bot_le, fun x _ => ?_⟩
    exact EReal.coe_le_coe_iff.mpr (Finset.le_sup' r (Finset.mem_univ x))
  · -- the supremum is attained, and that term is below the fold
    obtain ⟨i, _, hi⟩ := Finset.exists_mem_eq_sup' (Finset.univ_nonempty (α := ι)) r
    rw [hi]
    exact (Finset.le_fold_max _).mpr (Or.inr ⟨i, Finset.mem_univ i, le_rfl⟩)

/-! ## One tile's update on finite scores -/

theorem stepMax_first (r : Fin 512 → ℝ) :
    stepMax (fun k => (r k : EReal)) (Ideal.ofBits .f32 0xFF800000#32)
      = ((Finset.univ.sup' Finset.univ_nonempty r : ℝ) : EReal) := by
  unfold stepMax
  rw [ofBits_negInf, fold_max_bot_coe]
  exact max_eq_right bot_le

theorem stepMax_next (r : Fin 512 → ℝ) (μ : ℝ) :
    stepMax (fun k => (r k : EReal)) (μ : EReal)
      = ((max μ (Finset.univ.sup' Finset.univ_nonempty r) : ℝ) : EReal) := by
  unfold stepMax
  rw [ofBits_negInf, fold_max_bot_coe, coe_max']

theorem stepSum_first (r : Fin 512 → ℝ) :
    stepSum (fun k => (r k : EReal)) (Ideal.ofBits .f32 0xFF800000#32) (Ideal.ofBits .f32 0x00000000#32)
      = ((∑ k : Fin 512, Real.exp (r k - Finset.univ.sup' Finset.univ_nonempty r) : ℝ) : EReal) := by
  unfold stepSum
  rw [stepMax_first, ofBits_zero, mul_zero, zero_add, coe_sum]
  refine Finset.sum_congr rfl fun k _ => ?_
  rw [← EReal.coe_sub, Ideal.exp_coe]

theorem stepSum_next (r : Fin 512 → ℝ) (μ l : ℝ) :
    stepSum (fun k => (r k : EReal)) (μ : EReal) (l : EReal)
      = ((Real.exp (μ - max μ (Finset.univ.sup' Finset.univ_nonempty r)) * l
          + ∑ k : Fin 512, Real.exp (r k - max μ (Finset.univ.sup' Finset.univ_nonempty r)) : ℝ) : EReal) := by
  unfold stepSum
  rw [stepMax_next, EReal.coe_add, EReal.coe_mul, coe_sum, ← EReal.coe_sub, Ideal.exp_coe]
  -- the two sides now differ only by where the coercion sits inside each exponential, which is definitional
  congr 1

theorem stepDiag_coe (r : Fin 512 → ℝ) (q : Fin 512) :
    stepDiag (fun k => (r k : EReal)) q = (r q : EReal) := by
  unfold stepDiag
  rw [ofBits_zero, Finset.sum_eq_single q]
  · rw [if_pos rfl]
  · intro k _ hk
    rw [if_neg]
    intro h
    exact hk (Fin.ext h.symm)
  · intro h
    exact absurd (Finset.mem_univ q) h

theorem finish_coe (μ l d : ℝ) (hl : 0 < l) :
    finish (μ : EReal) (l : EReal) (d : EReal) = ((d - (μ + Real.log l) : ℝ) : EReal) := by
  unfold finish
  rw [Ideal.log_coe, if_neg (not_le.mpr hl), EReal.coe_sub, EReal.coe_add]

/-- The score of a pair of finite tiles: the inner product, the key tile's entry written first (the
    order the column's logit has it). -/
theorem tileScore_coe (yq yk : SBlk.Idx → ℝ) (b : Fin 4) (q k : Fin 512) :
    tileScore (fun i => (yq i : EReal)) (fun i => (yk i : EReal)) b q k
      = ((∑ d : Fin 256, yk (ix3 b k d) * yq (ix3 b q d) : ℝ) : EReal) := by
  unfold tileScore
  rw [ofBits_one, mul_one, coe_sum]
  refine Finset.sum_congr rfl fun d _ => ?_
  rw [EReal.coe_mul, mul_comm]

/-! ## The recurrence reaches the column's statistics -/

theorem runSum_pos (f : Fin 4096 → ℝ) (j : ℕ) : 0 < runSum f j := by
  induction j with
  | zero =>
    unfold runSum
    exact Finset.sum_pos (fun _ _ => Real.exp_pos _) Finset.univ_nonempty
  | succ j ih =>
    unfold runSum
    exact add_pos (mul_pos (Real.exp_pos _) ih)
      (Finset.sum_pos (fun _ _ => Real.exp_pos _) Finset.univ_nonempty)

theorem colSum_pos (f : Fin 4096 → ℝ) : 0 < colSum f := by
  unfold colSum
  exact Finset.sum_pos (fun _ _ => Real.exp_pos _) Finset.univ_nonempty

/-- Every position of a tile up to the j-th lies below the running maximum after tile j. -/
private theorem le_runMax (f : Fin 4096 → ℝ) (j : ℕ) :
    ∀ j' ≤ j, ∀ k : Fin 512, f (tix j' k) ≤ runMax f j := by
  induction j with
  | zero =>
    intro j' hj' k
    obtain rfl : j' = 0 := Nat.le_zero.mp hj'
    show f (tix 0 k) ≤ tileMax f 0
    exact Finset.le_sup' (fun k : Fin 512 => f (tix 0 k)) (Finset.mem_univ k)
  | succ j ih =>
    intro j' hj' k
    show f (tix j' k) ≤ max (runMax f j) (tileMax f (j + 1))
    rcases Nat.lt_or_ge j' (j + 1) with h | h
    · exact le_trans (ih j' (Nat.lt_succ_iff.mp h) k) (le_max_left _ _)
    · obtain rfl : j' = j + 1 := le_antisymm hj' h
      exact le_trans (Finset.le_sup' (fun k : Fin 512 => f (tix (j + 1) k)) (Finset.mem_univ k))
        (le_max_right _ _)

/-- The running maximum after tile j is attained at a position of one of the tiles 0..j. -/
private theorem runMax_attained (f : Fin 4096 → ℝ) (j : ℕ) :
    ∃ j' ≤ j, ∃ k : Fin 512, runMax f j = f (tix j' k) := by
  induction j with
  | zero =>
    obtain ⟨k, _, hk⟩ := Finset.exists_mem_eq_sup' (Finset.univ_nonempty (α := Fin 512))
      (fun k : Fin 512 => f (tix 0 k))
    exact ⟨0, le_rfl, k, hk⟩
  | succ j ih =>
    show ∃ j' ≤ j + 1, ∃ k : Fin 512, max (runMax f j) (tileMax f (j + 1)) = f (tix j' k)
    rcases le_total (runMax f j) (tileMax f (j + 1)) with h | h
    · obtain ⟨k, _, hk⟩ := Finset.exists_mem_eq_sup' (Finset.univ_nonempty (α := Fin 512))
        (fun k : Fin 512 => f (tix (j + 1) k))
      exact ⟨j + 1, le_rfl, k, by rw [max_eq_right h]; exact hk⟩
    · obtain ⟨j', hj', k, hk⟩ := ih
      exact ⟨j', Nat.le_succ_of_le hj', k, by rw [max_eq_left h]; exact hk⟩

/-- For a tile j < 8 the position tix j k is 512·j + k itself (no wrap-around). -/
private theorem tix_val (j : ℕ) (hj : j < 8) (k : Fin 512) : (tix j k).val = 512 * j + k.val := by
  have hk := k.isLt
  show (512 * j + k.val) % 4096 = 512 * j + k.val
  exact Nat.mod_eq_of_lt (by omega)

/-- The 4096 positions are the eight tiles of 512, in order. -/
private def tileEquiv : Fin 8 × Fin 512 ≃ Fin 4096 where
  toFun p := ⟨512 * p.1.val + p.2.val, by have := p.1.isLt; have := p.2.isLt; omega⟩
  invFun s := (⟨s.val / 512, by have := s.isLt; omega⟩, ⟨s.val % 512, Nat.mod_lt _ (by norm_num)⟩)
  left_inv p := by
    have h1 := p.1.isLt
    have h2 := p.2.isLt
    refine Prod.ext (Fin.ext ?_) (Fin.ext ?_)
    · show (512 * p.1.val + p.2.val) / 512 = p.1.val
      omega
    · show (512 * p.1.val + p.2.val) % 512 = p.2.val
      omega
  right_inv s := by
    refine Fin.ext ?_
    show 512 * (s.val / 512) + s.val % 512 = s.val
    omega

private theorem tileEquiv_eq_tix (j : Fin 8) (k : Fin 512) : tileEquiv (j, k) = tix j.val k :=
  Fin.ext (tix_val j.val j.isLt k).symm

/-- A sum over all positions is the sum over the eight tiles of the sums over each tile. -/
private theorem sum_tiles (g : Fin 4096 → ℝ) :
    ∑ s, g s = ∑ j ∈ Finset.range 8, ∑ k : Fin 512, g (tix j k) := by
  rw [Finset.sum_range (fun j => ∑ k : Fin 512, g (tix j k)),
    ← Fintype.sum_equiv tileEquiv (fun p => g (tileEquiv p)) g (fun _ => rfl),
    Fintype.sum_prod_type]
  refine Finset.sum_congr rfl fun j _ => Finset.sum_congr rfl fun k _ => ?_
  rw [tileEquiv_eq_tix]

theorem runMax_seven (f : Fin 4096 → ℝ) : runMax f 7 = colMax f := by
  unfold colMax
  apply le_antisymm
  · obtain ⟨j', _, k, hk⟩ := runMax_attained f 7
    rw [hk]
    exact Finset.le_sup' f (Finset.mem_univ _)
  · refine Finset.sup'_le _ _ fun s _ => ?_
    have hs : s = tix (tileEquiv.symm s).1.val (tileEquiv.symm s).2 := by
      rw [← tileEquiv_eq_tix, Prod.mk.eta, Equiv.apply_symm_apply]
    rw [hs]
    exact le_runMax f 7 _ (Nat.lt_succ_iff.mp (tileEquiv.symm s).1.isLt) _

/-- After tile j the running sum is the sum, over all positions of tiles 0..j, of the exponentials shifted
    by the running maximum: the rescaling exp(μ − μ')·exp(x − μ) = exp(x − μ') moves every old term. -/
private theorem runSum_eq (f : Fin 4096 → ℝ) (j : ℕ) :
    runSum f j = ∑ j' ∈ Finset.range (j + 1), ∑ k : Fin 512, Real.exp (f (tix j' k) - runMax f j) := by
  induction j with
  | zero =>
    rw [Finset.sum_range_one]
    rfl
  | succ j ih =>
    rw [Finset.sum_range_succ _ (j + 1)]
    show Real.exp (runMax f j - runMax f (j + 1)) * runSum f j
        + ∑ k : Fin 512, Real.exp (f (tix (j + 1) k) - runMax f (j + 1)) = _
    congr 1
    rw [ih, Finset.mul_sum]
    refine Finset.sum_congr rfl fun j' _ => ?_
    rw [Finset.mul_sum]
    refine Finset.sum_congr rfl fun k _ => ?_
    rw [← Real.exp_add]
    congr 1
    ring

theorem runSum_seven (f : Fin 4096 → ℝ) : runSum f 7 = colSum f := by
  unfold colSum
  rw [runSum_eq, runMax_seven, sum_tiles (fun s => Real.exp (f s - colMax f))]

end Cert.InfoNCE

end
-- ==== Proof.KernelInv.lean ====
/-
  The carried statistics, point by point, and the output tile.

  Fix a batch b and a query position q of query tile j; its column is f(s) = ℓ(b, s, 512·j + q). After the
  point of key tile i the running maximum is the maximum of f over key tiles 0..i, the running sum is the sum
  of exp(f − that maximum) over the same tiles, and the recorded diagonal is f(512·j + q) once the diagonal
  tile has been passed (i ≥ j) and 0 before. The induction over the points uses one tile update per point:
  from −∞ and 0 at a first key tile, from the previous point's values otherwise. After the eighth key tile the
  statistics are the whole column's, and the output tile holds the diagonal log-probability.
-/
import proofs.«164233_j1056561955228_1_alg».proof.Proof.KernelSteps
import proofs.«164233_j1056561955228_1_alg».proof.Proof.KernelStepsDiag
import proofs.«164233_j1056561955228_1_alg».proof.Proof.KernelPayload
import proofs.«164233_j1056561955228_1_alg».proof.Proof.SoftmaxMath

set_option maxRecDepth 16384

noncomputable section

namespace Cert.InfoNCE.Kernel

open Idealize.ShloMosaic Idealize.ShloMosaic.TcCoe Idealize.ShloMosaic.ValueIdx Idealize.SL.Sem
open Cert.InfoNCE Cert.KernelIdeal Cert.KernelIdeal.Gen

variable (m : (ℓ : Loc nD τ sig) → Buf (Elt Ideal) ℓ) (c : Dev nD) (a1 a2 : SZ.Idx → ℝ)

/-- The column followed by query position `q` of query tile `j` in batch `b`. -/
abbrev colOf (b : Fin 4) (j : ℕ) (q : Fin 512) : Fin 4096 → ℝ := column a1 a2 b (tix j q)

/-- A tile pair's scores are the column's values on the key tile. -/
theorem score_eq (h1 : ∀ i, inA m c i = (a1 i : EReal)) (h2 : ∀ i, inB m c i = (a2 i : EReal))
    (t : Fin cfg0.N) (b : Fin 4) (q : Fin 512) :
    tileScore (qblk m c t) (kblk m c t) b q
      = fun k => ((colOf a1 a2 b (t.val / 8) q (tix (t.val % 8) k) : ℝ) : EReal) := by
  funext k
  unfold tileScore
  simp only [qblk_apply, kblk_apply, h1, h2]
  rw [ofBits_one, mul_one]
  show _ = ((∑ n : Fin 256, a1 (ix3 b (tix (t.val % 8) k) n) * a2 (ix3 b (tix (t.val / 8) q) n) : ℝ) : EReal)
  rw [coe_sum]
  refine Finset.sum_congr rfl fun d _ => ?_
  rw [EReal.coe_mul, mul_comm]

/-- The statistics after point `n`. -/
theorem stats_at (h1 : ∀ i, inA m c i = (a1 i : EReal)) (h2 : ∀ i, inB m c i = (a2 i : EReal))
    (n : ℕ) (hn : n < cfg0.N) (b : Fin 4) (q : Fin 512) :
    statM m c ⟨n, hn⟩ (ix3 b q 0) = ((runMax (colOf a1 a2 b (n / 8) q) (n % 8) : ℝ) : EReal)
    ∧ statL m c ⟨n, hn⟩ (ix3 b q 0) = ((runSum (colOf a1 a2 b (n / 8) q) (n % 8) : ℝ) : EReal)
    ∧ statD m c ⟨n, hn⟩ (ix3 b q 0)
        = (if n / 8 ≤ n % 8 then ((colOf a1 a2 b (n / 8) q (tix (n / 8) q) : ℝ) : EReal) else 0) := by
  induction n with
  | zero =>
    have hsc := score_eq m c a1 a2 h1 h2 ⟨0, hn⟩ b q
    refine ⟨?_, ?_, ?_⟩
    · rw [statM_reset m c ⟨0, hn⟩ rfl, pay1_apply, pay8_apply, pay4_apply, hsc, stepMax_first]; rfl
    · rw [statL_reset m c ⟨0, hn⟩ rfl, pay9_apply, pay4_apply, pay5_apply, hsc, stepSum_first]; rfl
    · rw [statD_diag m c ⟨0, hn⟩ rfl, pay2_apply, hsc, stepDiag_coe]; rfl
  | succ n ih =>
    have hN : n + 1 < 64 := lt_of_lt_of_eq hn (show cfg0.N = 64 from N_0)
    have hsc := score_eq m c a1 a2 h1 h2 ⟨n + 1, hn⟩ b q
    have hsc' : tileScore (qblk m c ⟨n + 1, hn⟩) (kblk m c ⟨n + 1, hn⟩) b q
        = fun k => ((colOf a1 a2 b ((n + 1) / 8) q (tix ((n + 1) % 8) k) : ℝ) : EReal) := hsc
    by_cases h0 : (n + 1) % 8 = 0
    · -- a first key tile: the statistics restart
      have hM : statM m c ⟨n + 1, hn⟩ (ix3 b q 0) = ((runMax (colOf a1 a2 b ((n + 1) / 8) q) ((n + 1) % 8) : ℝ) : EReal) := by
        rw [statM_reset m c ⟨n + 1, hn⟩ h0, pay1_apply, pay8_apply, pay4_apply, hsc', stepMax_first, h0]; rfl
      have hL : statL m c ⟨n + 1, hn⟩ (ix3 b q 0) = ((runSum (colOf a1 a2 b ((n + 1) / 8) q) ((n + 1) % 8) : ℝ) : EReal) := by
        rw [statL_reset m c ⟨n + 1, hn⟩ h0, pay9_apply, pay4_apply, pay5_apply, hsc', stepSum_first, h0]; rfl
      refine ⟨hM, hL, ?_⟩
      have h1' : ¬(n + 1) % 9 = 0 := by omega
      rw [statD_reset m c ⟨n + 1, hn⟩ h0 h1', pay6_apply, Ideal.ofBits_zero_f32, if_neg (by omega)]
    · -- a later key tile: one update of the previous point's statistics
      obtain ⟨i', hi'⟩ : ∃ i', (n + 1) % 8 = i' + 1 := ⟨(n + 1) % 8 - 1, by omega⟩
      have hj : n / 8 = (n + 1) / 8 := by omega
      have hi : n % 8 = i' := by omega
      obtain ⟨ihM, ihL, ihD⟩ := ih (Nat.lt_of_succ_lt hn)
      rw [hj, hi] at ihM ihL ihD
      have hprev : prevPt (⟨n + 1, hn⟩ : Fin cfg0.N) = ⟨n, Nat.lt_of_succ_lt hn⟩ := rfl
      have hM : statM m c ⟨n + 1, hn⟩ (ix3 b q 0) = ((runMax (colOf a1 a2 b ((n + 1) / 8) q) ((n + 1) % 8) : ℝ) : EReal) := by
        rw [statM_next m c ⟨n + 1, hn⟩ h0, pay1_apply, pay8_apply, hprev, ihM, hsc', stepMax_next, hi']; rfl
      have hL : statL m c ⟨n + 1, hn⟩ (ix3 b q 0) = ((runSum (colOf a1 a2 b ((n + 1) / 8) q) ((n + 1) % 8) : ℝ) : EReal) := by
        rw [statL_next m c ⟨n + 1, hn⟩ h0, pay9_apply, hprev, ihM, ihL, hsc', stepSum_next, hi']; rfl
      refine ⟨hM, hL, ?_⟩
      by_cases h9 : (n + 1) % 9 = 0
      · have hd : (n + 1) / 8 = (n + 1) % 8 := by omega
        rw [statD_diag m c ⟨n + 1, hn⟩ h9, pay2_apply, hsc', stepDiag_coe, if_pos (le_of_eq hd), hd]
      · rw [statD_keep m c ⟨n + 1, hn⟩ h0 h9, hprev, ihD]
        have hne : (n + 1) / 8 ≠ (n + 1) % 8 := by omega
        by_cases hle : (n + 1) / 8 ≤ i'
        · rw [if_pos hle, if_pos (by omega)]
        · rw [if_neg hle, if_neg (by omega)]

/-- At a last key tile the output tile holds the diagonal log-probabilities of the query tile's columns. -/
theorem out_last (h1 : ∀ i, inA m c i = (a1 i : EReal)) (h2 : ∀ i, inB m c i = (a2 i : EReal))
    (t : Fin cfg0.N) (h7 : t.val % 8 = 7) (b : Fin 4) (q : Fin 512) :
    outT m c t (ix2 b q) = diagLogp a1 a2 (ix2 b (tix (t.val / 8) q)) := by
  obtain ⟨n, hn⟩ := t
  have hN : n < 64 := lt_of_lt_of_eq hn (show cfg0.N = 64 from N_0)
  obtain ⟨hM, hL, hD⟩ := stats_at m c a1 a2 h1 h2 n hn b q
  have h7' : n % 8 = 7 := h7
  rw [outT_last m c ⟨n, hn⟩ h7, pay3_apply, hM, hL, hD, h7', if_pos (by omega), runMax_seven, runSum_seven,
    finish_coe _ _ _ (colSum_pos _)]
  rfl

end Cert.InfoNCE.Kernel

end
-- ==== Proof.Tail.lean ====
/-
  The closing mean, shared by both programs: the negated average of the 4 × 4096 per-column values
  (their sum from 0, divided by 16384, negated).
-/
import proofs.«164233_j1056561955228_1_alg».proof.Proof.Spec

noncomputable section

namespace Cert.InfoNCE

open Idealize.ShloMosaic

/-- The scalar shape. -/
abbrev S0 : Shape := ⟨0, ![]⟩

/-- The loss from the per-column array. -/
def meanNeg (h : SD.ReducesTo [0, 1] S0) (h0 : 0 < S0.numel) (D : FVec Ideal SD .f32) : FVec Ideal S0 .f32 :=
  Host.negf (F := Ideal) (Host.divf (F := Ideal)
    (Host.reduceAdd (F := Ideal) D (constant (F := Ideal) S0 .f32 0x00000000#32) h h0)
    (constant (F := Ideal) S0 .f32 0x46800000#32))

end Cert.InfoNCE

end
-- ==== Proof.KernelValue.lean ====
/-
  The streamed program's result array and its closing mean.

  The output window writes a tile back exactly at the last key tile of each query tile (points ≡ 7 mod 8), and
  the eight tiles written tile the 4 × 4096 array; what is written at (b, q) of query tile j is the diagonal
  log-probability of column (b, 512·j + q). So the array ends as the specification's, and the operations after
  the region are the closing mean of it.
-/
import proofs.«164233_j1056561955228_1_alg».proof.Proof.KernelInv
import proofs.«164233_j1056561955228_1_alg».proof.Proof.Tail
import Idealize.ShloMosaic.Lib.Pipeline.Value
import Idealize.ShloMosaic.Lib.StableHlo.Run

set_option maxRecDepth 16384

noncomputable section

namespace Cert.InfoNCE.Kernel

open Idealize.ShloMosaic Idealize.ShloMosaic.TcCoe Idealize.ShloMosaic.ValueIdx Idealize.SL.Sem Idealize.ShloMosaic.StableHlo
open Cert.InfoNCE Cert.KernelIdeal Cert.KernelIdeal.Gen

variable (m : (ℓ : Loc nD τ sig) → Buf (Elt Ideal) ℓ) (ρ : Dev nD → PrngReg) (c : Dev nD) (a1 a2 : SZ.Idx → ℝ)

/-- The output window's block index at point `t`: all batches, query tile t / 8. -/
theorem out_index : ∀ t : Fin cfg0.N, win0_2.index t 0 = 0 ∧ win0_2.index t 1 = t.val / 8 :=
  (by decide +kernel : ∀ t : Fin grid0.N, _)

/-- What a last key tile's point writes back is its block of the specification's array. -/
theorem flushed_eq (h1 : ∀ i, inA m c i = (a1 i : EReal)) (h2 : ∀ i, inB m c i = (a2 i : EReal))
    (t : Fin cfg0.N) (hf : (cfg0.win 2).flush t = true) :
    (dats m 0 c).flushed 2 t = ((cfg0.win 2).blk t).view.read (Elt Ideal) (diagLogp a1 a2) := by
  have h7 : t.val % 8 = 7 := (flush0_2 t).mp hf
  have hN : t.val < 64 := lt_of_lt_of_eq t.isLt (show cfg0.N = 64 from N_0)
  obtain ⟨e0, e1⟩ := out_index t
  show (cfg0.win 2).cut (grid0.coords t) ((dats m 0 c).after 2 t) = _
  rw [after0_2]
  funext j
  obtain ⟨b, q, rfl⟩ : ∃ (b : Fin 4) (q : Fin 512), j = ix2 b q := ⟨j 0, j 1, eq_ix2 j⟩
  rw [View.read_apply]
  have e : ((cfg0.win 2).blk t).view.emb (ix2 b q) = ix2 b (tix (t.val / 8) q) := by
    funext a
    apply Fin.ext
    match a with
    | ⟨0, _⟩ => show win0_2.index t 0 * 4 + 1 * b.val = b.val; rw [e0]; omega
    | ⟨1, _⟩ => show win0_2.index t 1 * 512 + 1 * q.val = (tix (t.val / 8) q).val; rw [e1, tix_val _ (by omega)]; omega
  rw [e]
  exact out_last m c a1 a2 h1 h2 t h7 b q

/-- Every entry of the array lies in the block written at the last key tile of its query tile. -/
theorem cover (i : S4x4096.Idx) :
    ∃ t : Fin cfg0.N, (cfg0.win 2).flush t = true ∧ i ∈ ((cfg0.win 2).blk t).view.set := by
  have hi0 : (i 0).val < 4 := (i 0).isLt
  have hi1 : (i 1).val < 4096 := (i 1).isLt
  have hN : cfg0.N = 64 := N_0
  have ht : 8 * ((i 1).val / 512) + 7 < cfg0.N := by rw [hN]; omega
  refine ⟨⟨8 * ((i 1).val / 512) + 7, ht⟩, (flush0_2 _).mpr (by show (8 * ((i 1).val / 512) + 7) % 8 = 7; omega), ?_⟩
  obtain ⟨e0, e1⟩ := out_index ⟨8 * ((i 1).val / 512) + 7, ht⟩
  show i ∈ ((View.whole main_v2).slice (win0_2.rect ⟨8 * ((i 1).val / 512) + 7, ht⟩)).set
  rw [View.set_slice_whole, Rect.mem_set_unit]
  intro a
  match a with
  | ⟨0, _⟩ =>
    show win0_2.index ⟨8 * ((i 1).val / 512) + 7, ht⟩ 0 * 4 ≤ (i 0).val ∧ (i 0).val < win0_2.index ⟨8 * ((i 1).val / 512) + 7, ht⟩ 0 * 4 + 4
    rw [e0]; omega
  | ⟨1, _⟩ =>
    show win0_2.index ⟨8 * ((i 1).val / 512) + 7, ht⟩ 1 * 512 ≤ (i 1).val ∧ (i 1).val < win0_2.index ⟨8 * ((i 1).val / 512) + 7, ht⟩ 1 * 512 + 512
    rw [e1]; show (8 * ((i 1).val / 512) + 7) / 8 * 512 ≤ (i 1).val ∧ (i 1).val < (8 * ((i 1).val / 512) + 7) / 8 * 512 + 512; omega

/-- The result array after the run. -/
theorem final (h1 : ∀ i, inA m c i = (a1 i : EReal)) (h2 : ∀ i, inB m c i = (a2 i : EReal)) :
    (dats m 0 c).arrAt 2 cfg0.N = diagLogp a1 a2 :=
  (dats m 0 c).arrAt_eq_of_cover 2 (diagLogp a1 a2) (flushed_eq m c a1 a2 h1 h2) cover

/-- The operations after the region compute the closing mean of the result array. -/
theorem tail_eq :
    Pipeline.afterTail₀ cfgs (dats m) 0 (V0 m) [hostOps1] c main_v5
      = meanNeg Facts₀.reducesTo_S4x4096_S_d0_1 Facts₀.h_S_ ((dats m 0 c).arrAt 2 cfg0.N) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.tc.devRef main_v2)
      = (dats m 0 c).arrAt 2 cfg0.N :=
    Pipeline.withArrays_arr spec0 launch0.win.arr_inj c (V0 m c) (fun w => (dats m 0 c).arrAt w cfg0.N) 2
  rw [hw]
  rfl

/-- The run, read: the result at the closing mean of the specification's array, the arguments unchanged. -/
theorem run (b1 b2 : Dev nD → SZ.Idx → ℝ)
    (h1 : ∀ c i, inA m c i = (b1 c i : EReal)) (h2 : ∀ c i, inB m c i = (b2 c i : EReal)) :
    θ_run defs (onTc (τ := τ) (main (F := Ideal))) ⟨m, fun _ => 0, ρ⟩ fun r => ∀ c : Dev nD,
      r.2.mem ((c : Thread nD τ).loc main_v5)
        = meanNeg Facts₀.reducesTo_S4x4096_S_d0_1 Facts₀.h_S_ (diagLogp (b1 c) (b2 c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v5 (Pipeline.mem_restRefs_of main_v5 (by decide) (by decide))).trans
        ((tail_eq m c).trans (congrArg (meanNeg Facts₀.reducesTo_S4x4096_S_d0_1 Facts₀.h_S_)
          (final m c (b1 c) (b2 c) (h1 c) (h2 c)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.InfoNCE.Kernel

end
-- ==== Proof.RefValue.lean ====
/-
  The reference's per-column array is the diagonal log-probability.

  On finite inputs the reference forms every logit ℓ(b,s,t) (a contraction over the feature axis, divided by
  the unit temperature), subtracts the column maximum μ(b,t) (a maximum over s, folded from −∞), exponentiates,
  sums over s, takes the logarithm, and subtracts; the diagonal s = t is then picked by a masked sum over s.
  All of these are finite, so each extended-real operation is the coercion of the real one, and the masked
  sum keeps exactly the term s = t.
-/
import proofs.«164233_j1056561955228_1_alg».proof.Proof.RefRead
import proofs.«164233_j1056561955228_1_alg».proof.Proof.SoftmaxMath
import Idealize.ShloMosaic.Lib.ValueIdx
import Idealize.ShloMosaic.Lib.Pipeline.Value
import Idealize.ShloMosaic.PureOps.Ideal.Laws

noncomputable section

namespace Cert.InfoNCE.Ref

open Idealize.ShloMosaic Idealize.ShloMosaic.ValueIdx Cert.InfoNCE
open Cert.ReferenceIdeal Cert.ReferenceIdeal.Gen Cert.ReferenceIdeal.ReadP

/-! ## Small facts about words and constants -/

/-- The all-zero word is the real number 0. -/
private theorem ofBits_zero : Ideal.ofBits .f32 0x00000000#32 = (0 : EReal) := by
  simp [Ideal.ofBits, Ideal.ieee]

/-- Dividing by the unit temperature changes nothing. -/
private theorem div_one' (x : EReal) : Ideal.div x 1 = x := by
  unfold Ideal.div
  rw [if_neg one_ne_zero, inv_one, mul_one]

/-- Two position numbers below 4096, written as 32-bit words, are equal words exactly when they are equal. -/
private theorem cmpi_eq_ofNat (m n : Nat) (hm : m < 4096) (hn : n < 4096) :
    IntOp.cmpi .eq (BitVec.ofNat 32 m) (BitVec.ofNat 32 n) = if m = n then 1#1 else 0#1 := by
  unfold IntOp.cmpi
  by_cases h : m = n
  · subst h; simp
  · rw [if_neg h]
    have hne : (BitVec.ofNat 32 m == BitVec.ofNat 32 n) = false := by
      rw [beq_eq_false_iff_ne]
      intro e
      have e' := congrArg BitVec.toNat e
      rw [BitVec.toNat_ofNat, BitVec.toNat_ofNat] at e'
      omega
    simp [hne]

/-! ## Index bookkeeping: each composed index function, at coordinates, is a coordinate triple or pair -/

private theorem lidx_v0 (b : Fin 4) (s t : Fin 4096) (k : Fin 256) : lidx_main_v0 (ix3 b s t) k = ix3 b s k :=
  funext fun a => Fin.ext (by match a with | ⟨0, _⟩ => rfl | ⟨1, _⟩ => rfl | ⟨2, _⟩ => rfl)

private theorem ridx_v0 (b : Fin 4) (s t : Fin 4096) (k : Fin 256) : ridx_main_v0 (ix3 b s t) k = ix3 b t k :=
  funext fun a => Fin.ext (by match a with | ⟨0, _⟩ => rfl | ⟨1, _⟩ => rfl | ⟨2, _⟩ => rfl)

private theorem idx_c34 (b : Fin 4) (s t : Fin 4096) :
    idx_main_call0_v3 (idx_main_call0_v4 (ix3 b s t)) = ix2 b t :=
  funext fun a => Fin.ext (by match a with | ⟨0, _⟩ => rfl | ⟨1, _⟩ => rfl)

private theorem idx_c810 (b : Fin 4) (s t : Fin 4096) :
    idx_main_call0_v8 (idx_main_call0_v10 (ix3 b s t)) = ix2 b t :=
  funext fun a => Fin.ext (by match a with | ⟨0, _⟩ => rfl | ⟨1, _⟩ => rfl)

private theorem idx_c7 (b : Fin 4) (t k : Fin 4096) : idx_main_call0_v7 (ix2 b t) k = ix3 b k t :=
  funext fun a => Fin.ext (by match a with | ⟨0, _⟩ => rfl | ⟨1, _⟩ => rfl | ⟨2, _⟩ => rfl)

private theorem idx_10 (b : Fin 4) (t k : Fin 4096) : idx_main_v10 (ix2 b t) k = ix3 b k t :=
  funext fun a => Fin.ext (by match a with | ⟨0, _⟩ => rfl | ⟨1, _⟩ => rfl | ⟨2, _⟩ => rfl)

private theorem idx_7 (b : Fin 4) (s t : Fin 4096) : idx_main_v7 (ix3 b s t) = ix2 s t :=
  funext fun a => Fin.ext (by match a with | ⟨0, _⟩ => rfl | ⟨1, _⟩ => rfl)

/-- The reduced index (b,t) with position `k` put back on the reduced axis is (b,k,t). -/
private theorem lift_eq (h : S4x4096x4096.Reduces [1] S4x4096) (b : Fin 4) (t : Fin 4096)
    (k : Fin (S4x4096x4096.size 1)) : h.lift (ix2 b t) k = ix3 b (⟨k.val, k.isLt⟩ : Fin 4096) t := by
  funext c; apply Fin.ext
  match c with
  | ⟨0, _⟩ => rfl
  | ⟨1, _⟩ => rfl
  | ⟨2, _⟩ => rfl

/-! ## The stages, each at coordinates, as the coercion of a real number -/

section Stages

variable (a1 a2 : SZ.Idx → ℝ)

/-- The logit array: the contraction over the feature axis, divided by one. -/
private theorem logit_at (b : Fin 4) (s t : Fin 4096) :
    val_main_v2 (F := Ideal) (fun i => (a1 i : EReal)) (fun i => (a2 i : EReal)) (ix3 b s t)
      = ((logit a1 a2 b s t : ℝ) : EReal) := by
  rw [val_main_v2_apply, val_main_v0_apply, val_main_v1_apply, val_main_cst_apply, Ideal.hostDivf_def,
    Ideal.ofBits_def, ofBits_one, div_one']
  unfold logit
  rw [coe_sum]
  refine Finset.sum_congr rfl fun k _ => ?_
  rw [lidx_v0, ridx_v0, EReal.coe_mul]

/-- The column maximum: the fold from −∞ over the first sequence axis is the real maximum of the column. -/
private theorem max_at (b : Fin 4) (t : Fin 4096) :
    val_main_call0_v2 (F := Ideal) (fun i => (a1 i : EReal)) (fun i => (a2 i : EReal)) (ix2 b t)
      = ((colMax (column a1 a2 b t) : ℝ) : EReal) := by
  have h : S4x4096x4096.Reduces [1] S4x4096 := by decide
  have hf : (val_main_v2 (F := Ideal) (fun i => (a1 i : EReal)) (fun i => (a2 i : EReal)) ∘ h.lift (ix2 b t))
      = fun k : Fin 4096 => ((column a1 a2 b t k : ℝ) : EReal) := funext fun k => by
    show val_main_v2 (F := Ideal) (fun i => (a1 i : EReal)) (fun i => (a2 i : EReal)) (h.lift (ix2 b t) k) = _
    rw [lift_eq, logit_at]
    rfl
  rw [val_main_call0_v2_apply, val_main_call0_v1_apply, val_main_call0_cst_0_apply]
  unfold val_main_call0_v0
  rw [Host.reduce_eq_fold_single FloatOps.maximumf _ _ reducesTo_S4x4096x4096_S4x4096_d1 h h_S_,
    val_main_call0_cst_apply, hf, Ideal.maximumf_def, Ideal.ofBits_def, ofBits_negInf]
  unfold colMax
  rw [← fold_max_bot_coe]
  exact max_eq_right bot_le

/-- The shifted logit ℓ − μ. -/
private theorem shifted_at (b : Fin 4) (s t : Fin 4096) :
    val_main_call0_v5 (F := Ideal) (fun i => (a1 i : EReal)) (fun i => (a2 i : EReal)) (ix3 b s t)
      = ((logit a1 a2 b s t - colMax (column a1 a2 b t) : ℝ) : EReal) := by
  rw [val_main_call0_v5_apply, val_main_call0_v4_apply, val_main_call0_v3_apply, idx_c34, max_at, logit_at,
    Ideal.subf_def, EReal.coe_sub]

/-- The column's sum of shifted exponentials. -/
private theorem sum_at (b : Fin 4) (t : Fin 4096) :
    val_main_call0_v7 (F := Ideal) (fun i => (a1 i : EReal)) (fun i => (a2 i : EReal)) (ix2 b t)
      = ((colSum (column a1 a2 b t) : ℝ) : EReal) := by
  rw [val_main_call0_v7_apply, val_main_call0_cst_1_apply, Ideal.ofBits_def, ofBits_zero, zero_add]
  unfold colSum
  rw [coe_sum]
  refine Finset.sum_congr rfl fun k _ => ?_
  rw [idx_c7, val_main_call0_v6_apply, shifted_at, Ideal.hostUnary_exp_def, Ideal.exp_coe]
  rfl

/-- The log-softmax entry ℓ − μ − log Σ. -/
private theorem logsoftmax_at (b : Fin 4) (s t : Fin 4096) :
    val_main_v3 (F := Ideal) (fun i => (a1 i : EReal)) (fun i => (a2 i : EReal)) (ix3 b s t)
      = ((logit a1 a2 b s t - colMax (column a1 a2 b t) - Real.log (colSum (column a1 a2 b t)) : ℝ) : EReal) := by
  rw [val_main_v3_apply, val_main_call0_v10_apply, val_main_call0_v9_apply, val_main_call0_v8_apply, idx_c810,
    sum_at, shifted_at, Ideal.hostUnary_log_def, Ideal.log_coe, if_neg (not_le.mpr (colSum_pos _)),
    Ideal.subf_def, ← EReal.coe_sub]

/-- The masked entry: the log-softmax entry on the diagonal s = t, zero off it. -/
private theorem masked_at (b : Fin 4) (s t : Fin 4096) :
    val_main_v9 (F := Ideal) (fun i => (a1 i : EReal)) (fun i => (a2 i : EReal)) (ix3 b s t)
      = if s = t then
          ((logit a1 a2 b s t - colMax (column a1 a2 b t) - Real.log (colSum (column a1 a2 b t)) : ℝ) : EReal)
        else 0 := by
  rw [val_main_v9_apply, val_main_v7_apply, idx_7, val_main_v6_apply, val_main_v4_apply, val_main_v5_apply,
    val_main_v8_apply, val_main_cst_0_apply, Ideal.ofBits_def, ofBits_zero, logsoftmax_at]
  show Scalar.select (IntOp.cmpi .eq (BitVec.ofNat 32 s.val) (BitVec.ofNat 32 t.val)) _ _ = _
  rw [cmpi_eq_ofNat s.val t.val s.isLt t.isLt]
  by_cases h : s = t
  · rw [if_pos h, if_pos (congrArg Fin.val h), select_one]
  · rw [if_neg h, if_neg (fun e => h (Fin.ext e)), select_zero]

end Stages

/-- The reference's array before the closing mean: at (b,t) the diagonal log-probability of column (b,t). -/
theorem ref_diag (a1 a2 : SZ.Idx → ℝ) :
    Cert.ReferenceIdeal.ReadP.val_main_v10 (F := Ideal) (fun i => (a1 i : EReal)) (fun i => (a2 i : EReal))
      = diagLogp a1 a2 := by
  funext i
  obtain ⟨b, t, rfl⟩ : ∃ (b : Fin 4) (t : Fin 4096), i = ix2 b t := ⟨i 0, i 1, eq_ix2 i⟩
  rw [val_main_v10_apply, val_main_cst_1_apply, Ideal.ofBits_def, ofBits_zero, zero_add]
  have hs : ∀ k : Fin 4096,
      val_main_v9 (F := Ideal) (fun i => (a1 i : EReal)) (fun i => (a2 i : EReal)) (idx_main_v10 (ix2 b t) k)
        = if k = t then
            ((logit a1 a2 b k t - colMax (column a1 a2 b t) - Real.log (colSum (column a1 a2 b t)) : ℝ) : EReal)
          else 0 := fun k => by rw [idx_10, masked_at]
  rw [Finset.sum_congr rfl fun k _ => hs k, Finset.sum_ite_eq' Finset.univ t, if_pos (Finset.mem_univ t)]
  show _ = ((diagLogpR a1 a2 b t : ℝ) : EReal)
  unfold diagLogpR column
  rw [sub_sub]

end Cert.InfoNCE.Ref

end
-- ==== Proof.lean ====
/-
  The certificate: the streamed contrastive loss equals the reference's.

  Both programs compute  L = −(1/16384) ∑_{b,t} D(b,t)  with
      D(b,t) = ℓ(b,t,t) − ( maxₛ ℓ(b,s,t) + log ∑ₛ exp(ℓ(b,s,t) − maxₛ ℓ(b,s,t)) ),   ℓ(b,s,t) = ⟨z₁(b,s,·), z₂(b,t,·)⟩.
  The reference forms the whole 4096 × 4096 logit matrix per batch and takes the diagonal of its log-softmax
  along s. The streamed program visits the logits in 512 × 512 tiles, keeping per column a running maximum and
  a running sum rescaled by exp(old max − new max), and the diagonal logit; after the last tile the statistics
  are the column's, since exp(μ − μ')·exp(x − μ) = exp(x − μ'). Finite inputs make every quantity a real number,
  which is where the rescaling law and log of a positive sum are used. The two closing means are the same
  operations on the same array.

  Frames: the streamed program's two frames are the generated ones; the reference's is its run with the result
  dropped. The idealization rewrote nothing, so its preservation claim is trivial.
-/
import proofs.«164233_j1056561955228_1_alg».proof.Defs
import proofs.«164233_j1056561955228_1_alg».proof.Proof.Gen.Kernel
import proofs.«164233_j1056561955228_1_alg».proof.Proof.Gen.Kernel.Skeleton
import proofs.«164233_j1056561955228_1_alg».proof.Proof.Gen.Kernel.Launch
import proofs.«164233_j1056561955228_1_alg».proof.Proof.Gen.Kernel.Points
import proofs.«164233_j1056561955228_1_alg».proof.Proof.Gen.Kernel.Frame
import proofs.«164233_j1056561955228_1_alg».proof.Proof.Gen.KernelIdeal
import proofs.«164233_j1056561955228_1_alg».proof.Proof.Gen.KernelIdeal.Skeleton
import proofs.«164233_j1056561955228_1_alg».proof.Proof.Gen.KernelIdeal.Launch
import proofs.«164233_j1056561955228_1_alg».proof.Proof.Gen.KernelIdeal.Points
import proofs.«164233_j1056561955228_1_alg».proof.Proof.Gen.KernelIdeal.Frame
import proofs.«164233_j1056561955228_1_alg».proof.Proof.Gen.ReferenceIdeal
import proofs.«164233_j1056561955228_1_alg».proof.Proof.Gen.Pre_finite_inputs
import proofs.«164233_j1056561955228_1_alg».proof.Proof.Finite
import proofs.«164233_j1056561955228_1_alg».proof.Proof.KernelValue
import proofs.«164233_j1056561955228_1_alg».proof.Proof.RefValue
import proofs.«164233_j1056561955228_1_alg».proof.Proof.RefRunHand
import Idealize.ShloMosaic.Adequacy
import Idealize.ShloMosaic.Init

noncomputable section

namespace Cert.Proof

open Idealize.ShloMosaic Idealize.SL.Sem Cert.InfoNCE

/-- The reference's result is the closing mean of its per-column array. -/
theorem ref_result (x0 x1 : FVec Ideal Cert.ReferenceIdeal.S4x4096x256 .f32) :
    Cert.ReferenceIdeal.ReadP.val_main_v13 (F := Ideal) x0 x1
      = meanNeg Cert.ReferenceIdeal.Facts₀.reducesTo_S4x4096_S_d0_1 Cert.ReferenceIdeal.Facts₀.h_S_
          (Cert.ReferenceIdeal.ReadP.val_main_v10 (F := Ideal) x0 x1) := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunH.run (F := Ideal) m ρ)

theorem algebraic : Cert.algebraic_KernelIdeal_ReferenceIdeal := by
  intro m ρ m' ρ' hpre hagree
  -- finite inputs are real arrays
  have hr := fun c : Dev Cert.KernelIdeal.nD => real_of_pre _ _ (hpre c)
  let b1 : Dev Cert.KernelIdeal.nD → SZ.Idx → ℝ := fun c i =>
    (m ((c.tc : Thread Cert.KernelIdeal.nD Cert.KernelIdeal.τ).loc Cert.KernelIdeal.main_arg0) i : EReal).toReal
  let b2 : Dev Cert.KernelIdeal.nD → SZ.Idx → ℝ := fun c i =>
    (m ((c.tc : Thread Cert.KernelIdeal.nD Cert.KernelIdeal.τ).loc Cert.KernelIdeal.main_arg1) i : EReal).toReal
  have h1 : ∀ c i, Cert.InfoNCE.Kernel.inA m c i = (b1 c i : EReal) := fun c i => congrFun (hr c).1 i
  have h2 : ∀ c i, Cert.InfoNCE.Kernel.inB m c i = (b2 c i : EReal) := fun c i => congrFun (hr c).2 i
  refine ⟨fun c => meanNeg Cert.KernelIdeal.Facts₀.reducesTo_S4x4096_S_d0_1 Cert.KernelIdeal.Facts₀.h_S_ (diagLogp (b1 c) (b2 c)),
    Cert.InfoNCE.Kernel.run m ρ b1 b2 h1 h2, ?_⟩
  refine (θ_run Cert.ReferenceIdeal.defs _ _).mono (fun _ h c => ⟨?_, (h c).2⟩) (Cert.ReferenceIdeal.RunH.run (F := Ideal) m' ρ')
  rw [(h c).1, ref_result, (hagree c).1, (hagree c).2]
  have e1 : m ((c.tc : Thread Cert.KernelIdeal.nD Cert.KernelIdeal.τ).loc Cert.KernelIdeal.main_arg0) = fun i => (b1 c i : EReal) := (hr c).1
  have e2 : m ((c.tc : Thread Cert.KernelIdeal.nD Cert.KernelIdeal.τ).loc Cert.KernelIdeal.main_arg1) = fun i => (b2 c i : EReal) := (hr c).2
  rw [e1, e2, Cert.InfoNCE.Ref.ref_diag]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
